-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x128x128 : Shape := ⟨4, ![8, 32, 128, 128]⟩
abbrev S32x32 : Shape := ⟨2, ![32, 32]⟩
abbrev S32 : Shape := ⟨1, ![32]⟩
abbrev S_ : Shape := ⟨0, ![]⟩

class Facts : Prop where
  bcast_S_S8x32x128x128 : S_.BroadcastsInDim S8x32x128x128 (![] : Fin 0 → Fin S8x32x128x128.rank)
  reducesTo_S8x32x128x128_S_d0_1_2_3 : S8x32x128x128.ReducesTo [0, 1, 2, 3] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg7 : FVec F S32 .f32) (main_arg8 : FVec F S32 .f32) (main_arg9 : FVec F S32 .f32) (main_arg10 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg4 : FVec F S32 .f32) (main_arg5 : FVec F S32 .f32) (main_arg6 : FVec F S32 .f32) (main_arg7 : FVec F S32 .f32) (main_arg8 : FVec F S32 .f32) (main_arg9 : FVec F S32 .f32) (main_arg10 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x32x128x128 .f32) (main_arg1 : FVec F S32x32 .f32) (main_arg2 : FVec F S32x32 .f32) (main_arg3 : FVec F S32 .f32) (main_arg4 : FVec F S32 .f32) (main_arg5 : FVec F S32 .f32) (main_arg6 : FVec F S32 .f32) (main_arg7 : FVec F S32 .f32) (main_arg8 : FVec F S32 .f32) (main_arg9 : FVec F S32 .f32) (main_arg10 : FVec F S32 .f32) : IVec S_ 1 :=
  let main_v0 : FVec F S8x32x128x128 .f32 := Host.absf main_arg0
  let main_cst : FVec F S_ .f32 := constant S_ .f32 0x7F800000#32
  let main_v1 : FVec F S8x32x128x128 .f32 := broadcastInDim S8x32x128x128 ![] bcast_S_S8x32x128x128 main_cst
  let main_v2 : IVec S8x32x128x128 1 := cmpf .olt main_v0 main_v1
  let main_c : IVec S_ 1 := constantI S_ 1 1#1
  let main_v3 : IVec S_ 1 := (fun x v => Host.reduce IntOp.andi x v reducesTo_S8x32x128x128_S_d0_1_2_3 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_v13 main_v16
-- ==== Kernel.lean ====
abbrev S8x32x128x128 : Shape := ⟨4, ![8, 32, 128, 128]⟩
abbrev S32x32 : Shape := ⟨2, ![32, 32]⟩
abbrev S32 : Shape := ⟨1, ![32]⟩
abbrev S1x32 : Shape := ⟨2, ![1, 32]⟩
abbrev S2x32x128x128 : Shape := ⟨4, ![2, 32, 128, 128]⟩
abbrev S2x1x128x128 : Shape := ⟨4, ![2, 1, 128, 128]⟩
abbrev S2x128x128 : Shape := ⟨3, ![2, 128, 128]⟩
abbrev S32x1 : Shape := ⟨2, ![32, 1]⟩
abbrev S1x32x1x1 : Shape := ⟨4, ![1, 32, 1, 1]⟩

abbrev nBuf : Space → Nat
  | .hbm => 20
  | .vmem => 14
  | .smem => 0
  | _ => 0

abbrev bufTy : (tb : Table) → Fin (tcTables nBuf tb) → BufTy
  | .hbm, ⟨0, _⟩ => ⟨S8x32x128x128, .f32⟩
  | .hbm, ⟨1, _⟩ => ⟨S32x32, .f32⟩
  | .hbm, ⟨2, _⟩ => ⟨S32x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S1x32, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S1x32, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S8x32x128x128, .f32⟩
  | .local _ .vmem, ⟨0, _⟩ => ⟨S2x32x128x128, .f32⟩
  | .local _ .vmem, ⟨1, _⟩ => ⟨S2x32x128x128, .f32⟩
  | .local _ .vmem, ⟨2, _⟩ => ⟨S32x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S32x32, .f32⟩
  | .local _ .vmem, ⟨8, _⟩ => ⟨S1x32, .f32⟩
  | .local _ .vmem, ⟨9, _⟩ => ⟨S1x32, .f32⟩
  | .local _ .vmem, ⟨10, _⟩ => ⟨S1x32, .f32⟩
  | .local _ .vmem, ⟨11, _⟩ => ⟨S1x32, .f32⟩
  | .local _ .vmem, ⟨12, _⟩ => ⟨S2x32x128x128, .f32⟩
  | .local _ .vmem, ⟨13, _⟩ => ⟨S2x32x128x128, .f32⟩
  | _, _ => ⟨S8x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x32x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S32_S1x32 : S32.ShapeCasts S1x32
  inb_S2x32x128x128_S2x32x128x128_0_0_0_0 : ∀ a, (![0, 0, 0, 0] : Fin 4 → Nat) a + S2x32x128x128.size a ≤ S2x32x128x128.size a
  h_S2x32x128x128 : 0 < S2x32x128x128.numel
  inb_S32x32_S32x32_0_0 : ∀ a, (![0, 0] : Fin 2 → Nat) a + S32x32.size a ≤ S32x32.size a
  h_S32x32 : 0 < S32x32.numel
  slices_S2x32x128x128_o0_0_0_0_S2x1x128x128 : S2x32x128x128.Slices ![0, 0, 0, 0] S2x1x128x128
  shapeCasts_S2x1x128x128_S2x128x128 : S2x1x128x128.ShapeCasts S2x128x128
  slices_S32x32_o0_0_S32x1 : S32x32.Slices ![0, 0] S32x1
  shapeCasts_S32x1_S32 : S32x1.ShapeCasts S32
  shapeCasts_S2x128x128_S2x1x128x128 : S2x128x128.ShapeCasts S2x1x128x128
  shapeCasts_S32_S1x32x1x1 : S32.ShapeCasts S1x32x1x1
  broadcasts_S2x1x128x128_S2x32x128x128 : S2x1x128x128.Broadcasts S2x32x128x128
  broadcasts_S1x32x1x1_S2x32x128x128 : S1x32x1x1.Broadcasts S2x32x128x128
  slices_S2x32x128x128_o0_1_0_0_S2x1x128x128 : S2x32x128x128.Slices ![0, 1, 0, 0] S2x1x128x128
  slices_S32x32_o0_1_S32x1 : S32x32.Slices ![0, 1] S32x1
  slices_S2x32x128x128_o0_2_0_0_S2x1x128x128 : S2x32x128x128.Slices ![0, 2, 0, 0] S2x1x128x128
  slices_S32x32_o0_2_S32x1 : S32x32.Slices ![0, 2] S32x1
  slices_S2x32x128x128_o0_3_0_0_S2x1x128x128 : S2x32x128x128.Slices ![0, 3, 0, 0] S2x1x128x128
  slices_S32x32_o0_3_S32x1 : S32x32.Slices ![0, 3] S32x1
  slices_S2x32x128x128_o0_4_0_0_S2x1x128x128 : S2x32x128x128.Slices ![0, 4, 0, 0] S2x1x128x128
  slices_S32x32_o0_4_S32x1 : S32x32.Slices ![0, 4] S32x1
  slices_S2x32x128x128_o0_5_0_0_S2x1x128x128 : S2x32x128x128.Slices ![0, 5, 0, 0] S2x1x128x128
  slices_S32x32_o0_5_S32x1 : S32x32.Slices ![0, 5] S32x1
  slices_S2x32x128x128_o0_6_0_0_S2x1x128x128 : S2x32x128x128.Slices ![0, 6, 0, 0] S2x1x128x128
  slices_S32x32_o0_6_S32x1 : S32x32.Slices ![0, 6] S32x1
  slices_S2x32x128x128_o0_7_0_0_S2x1x128x128 : S2x32x128x128.Slices ![0, 7, 0, 0] S2x1x128x128
  slices_S32x32_o0_7_S32x1 : S32x32.Slices ![0, 7] S32x1
  slices_S2x32x128x128_o0_8_0_0_S2x1x128x128 : S2x32x128x128.Slices ![0, 8, 0, 0] S2x1x128x128
  slices_S32x32_o0_8_S32x1 : S32x32.Slices ![0, 8] S32x1
  slices_S2x32x128x128_o0_9_0_0_S2x1x128x128 : S2x32x128x128.Slices ![0, 9, 0, 0] S2x1x128x128
  slices_S32x32_o0_9_S32x1 : S32x32.Slices ![0, 9] S32x1
  slices_S2x32x128x128_o0_10_0_0_S2x1x128x128 : S2x32x128x128.Slices ![0, 10, 0, 0] S2x1x128x128
  slices_S32x32_o0_10_S32x1 : S32x32.Slices ![0, 10] S32x1
  slices_S2x32x128x128_o0_11_0_0_S2x1x128x128 : S2x32x128x128.Slices ![0, 11, 0, 0] S2x1x128x128
  slices_S32x32_o0_11_S32x1 : S32x32.Slices ![0, 11] S32x1
  slices_S2x32x128x128_o0_12_0_0_S2x1x128x128 : S2x32x128x128.Slices ![0, 12, 0, 0] S2x1x128x128
  slices_S32x32_o0_12_S32x1 : S32x32.Slices ![0, 12] S32x1
  slices_S2x32x128x128_o0_13_0_0_S2x1x128x128 : S2x32x128x128.Slices ![0, 13, 0, 0] S2x1x128x128
  slices_S32x32_o0_13_S32x1 : S32x32.Slices ![0, 13] S32x1
  slices_S2x32x128x128_o0_14_0_0_S2x1x128x128 : S2x32x128x128.Slices ![0, 14, 0, 0] S2x1x128x128
  slices_S32x32_o0_14_S32x1 : S32x32.Slices ![0, 14] S32x1
  slices_S2x32x128x128_o0_15_0_0_S2x1x128x128 : S2x32x128x128.Slices ![0, 15, 0, 0] S2x1x128x128
  slices_S32x32_o0_15_S32x1 : S32x32.Slices ![0, 15] S32x1
  slices_S2x32x128x128_o0_16_0_0_S2x1x128x128 : S2x32x128x128.Slices ![0, 16, 0, 0] S2x1x128x128
  slices_S32x32_o0_16_S32x1 : S32x32.Slices ![0, 16] S32x1
  slices_S2x32x128x128_o0_17_0_0_S2x1x128x128 : S2x32x128x128.Slices ![0, 17, 0, 0] S2x1x128x128
  slices_S32x32_o0_17_S32x1 : S32x32.Slices ![0, 17] S32x1
  slices_S2x32x128x128_o0_18_0_0_S2x1x128x128 : S2x32x128x128.Slices ![0, 18, 0, 0] S2x1x128x128
  slices_S32x32_o0_18_S32x1 : S32x32.Slices ![0, 18] S32x1
  slices_S2x32x128x128_o0_19_0_0_S2x1x128x128 : S2x32x128x128.Slices ![0, 19, 0, 0] S2x1x128x128
  slices_S32x32_o0_19_S32x1 : S32x32.Slices ![0, 19] S32x1
  slices_S2x32x128x128_o0_20_0_0_S2x1x128x128 : S2x32x128x128.Slices ![0, 20, 0, 0] S2x1x128x128
  slices_S32x32_o0_20_S32x1 : S32x32.Slices ![0, 20] S32x1
  slices_S2x32x128x128_o0_21_0_0_S2x1x128x128 : S2x32x128x128.Slices ![0, 21, 0, 0] S2x1x128x128
  slices_S32x32_o0_21_S32x1 : S32x32.Slices ![0, 21] S32x1
  slices_S2x32x128x128_o0_22_0_0_S2x1x128x128 : S2x32x128x128.Slices ![0, 22, 0, 0] S2x1x128x128
  slices_S32x32_o0_22_S32x1 : S32x32.Slices ![0, 22] S32x1
  slices_S2x32x128x128_o0_23_0_0_S2x1x128x128 : S2x32x128x128.Slices ![0, 23, 0, 0] S2x1x128x128
  slices_S32x32_o0_23_S32x1 : S32x32.Slices ![0, 23] S32x1
  slices_S2x32x128x128_o0_24_0_0_S2x1x128x128 : S2x32x128x128.Slices ![0, 24, 0, 0] S2x1x128x128
  slices_S32x32_o0_24_S32x1 : S32x32.Slices ![0, 24] S32x1
  slices_S2x32x128x128_o0_25_0_0_S2x1x128x128 : S2x32x128x128.Slices ![0, 25, 0, 0] S2x1x128x128
  slices_S32x32_o0_25_S32x1 : S32x32.Slices ![0, 25] S32x1
  slices_S2x32x128x128_o0_26_0_0_S2x1x128x128 : S2x32x128x128.Slices ![0, 26, 0, 0] S2x1x128x128
  slices_S32x32_o0_26_S32x1 : S32x32.Slices ![0, 26] S32x1
  slices_S2x32x128x128_o0_27_0_0_S2x1x128x128 : S2x32x128x128.Slices ![0, 27, 0, 0] S2x1x128x128
  slices_S32x32_o0_27_S32x1 : S32x32.Slices ![0, 27] S32x1
  slices_S2x32x128x128_o0_28_0_0_S2x1x128x128 : S2x32x128x128.Slices ![0, 28, 0, 0] S2x1x128x128
  slices_S32x32_o0_28_S32x1 : S32x32.Slices ![0, 28] S32x1
  slices_S2x32x128x128_o0_29_0_0_S2x1x128x128 : S2x32x128x128.Slices ![0, 29, 0, 0] S2x1x128x128
  slices_S32x32_o0_29_S32x1 : S32x32.Slices ![0, 29] S32x1
  slices_S2x32x128x128_o0_30_0_0_S2x1x128x128 : S2x32x128x128.Slices ![0, 30, 0, 0] S2x1x128x128
  slices_S32x32_o0_30_S32x1 : S32x32.Slices ![0, 30] S32x1
  slices_S2x32x128x128_o0_31_0_0_S2x1x128x128 : S2x32x128x128.Slices ![0, 31, 0, 0] S2x1x128x128
  slices_S32x32_o0_31_S32x1 : S32x32.Slices ![0, 31] S32x1
  inb_S1x32_S1x32_0_0 : ∀ a, (![0, 0] : Fin 2 → Nat) a + S1x32.size a ≤ S1x32.size a
  h_S1x32 : 0 < S1x32.numel
  shapeCasts_S1x32_S32 : S1x32.ShapeCasts S32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32x128x128.size a ≤ S8x32x128x128.size a
  hwx0_0 : ∀ i : grid0.Coords, EltTy.bits .f32 = 32 ∨ (Rect.block (s := S8x32x128x128) S2x32x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2x32x128x128.size a ≤ S8x32x128x128.size a
  hwx0_11 : ∀ i : grid0.Coords, EltTy.bits .f32 = 32 ∨ (Rect.block (s := S8x32x128x128) S2x32x128x128.size (cc0_transform_11 i) (hinb0_11 i)).WholeWords (EltTy.packing .f32)

variable [Facts₀]

abbrev win0_0 : Pipeline.Window sig grid0 :=
  Pipeline.Window.ofSpec (Memref.whole main_arg0) S2x32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S2x32x128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x32x128x128 : Shape := ⟨4, ![8, 32, 128, 128]⟩
abbrev S32x32 : Shape := ⟨2, ![32, 32]⟩
abbrev S32 : Shape := ⟨1, ![32]⟩
abbrev S8x1x32x128x128 : Shape := ⟨5, ![8, 1, 32, 128, 128]⟩
abbrev S1x32x32x1x1 : Shape := ⟨5, ![1, 32, 32, 1, 1]⟩
abbrev S8x32x32x128x128 : Shape := ⟨5, ![8, 32, 32, 128, 128]⟩
abbrev S_ : Shape := ⟨0, ![]⟩
abbrev S1x32x1x1 : Shape := ⟨4, ![1, 32, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S8x32x128x128, .f32⟩
  | .hbm, ⟨1, _⟩ => ⟨S32x32, .f32⟩
  | .hbm, ⟨2, _⟩ => ⟨S32x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S8x1x32x128x128, .f32⟩
  | .hbm, ⟨12, _⟩ => ⟨S1x32x32x1x1, .f32⟩
  | .hbm, ⟨13, _⟩ => ⟨S8x32x32x128x128, .f32⟩
  | .hbm, ⟨14, _⟩ => ⟨S8x32x32x128x128, .f32⟩
  | .hbm, ⟨15, _⟩ => ⟨S8x32x32x128x128, .f32⟩
  | .hbm, ⟨16, _⟩ => ⟨S8x32x32x128x128, .f32⟩
  | .hbm, ⟨17, _⟩ => ⟨S_, .f32⟩
  | .hbm, ⟨18, _⟩ => ⟨S8x32x128x128, .f32⟩
  | .hbm, ⟨19, _⟩ => ⟨S8x32x128x128, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S1x32x1x1, .f32⟩
  | .hbm, ⟨25, _⟩ => ⟨S8x32x128x128, .f32⟩
  | .hbm, ⟨26, _⟩ => ⟨S8x32x128x128, .f32⟩
  | .hbm, ⟨27, _⟩ => ⟨S32, .f32⟩
  | .hbm, ⟨28, _⟩ => ⟨S1x32x1x1, .f32⟩
  | .hbm, ⟨29, _⟩ => ⟨S8x32x128x128, .f32⟩
  | .hbm, ⟨30, _⟩ => ⟨S8x32x128x128, .f32⟩
  | .hbm, ⟨31, _⟩ => ⟨S1x32x1x1, .f32⟩
  | .hbm, ⟨32, _⟩ => ⟨S8x32x128x128, .f32⟩
  | .hbm, ⟨33, _⟩ => ⟨S8x32x128x128, .f32⟩
  | .hbm, ⟨34, _⟩ => ⟨S_, .f32⟩
  | .hbm, ⟨35, _⟩ => ⟨S8x32x128x128, .f32⟩
  | .hbm, ⟨36, _⟩ => ⟨S8x32x128x128, .f32⟩
  | .hbm, ⟨37, _⟩ => ⟨S8x1x32x128x128, .f32⟩
  | .hbm, ⟨38, _⟩ => ⟨S1x32x32x1x1, .f32⟩
  | .hbm, ⟨39, _⟩ => ⟨S8x32x32x128x128, .f32⟩
  | .hbm, ⟨40, _⟩ => ⟨S8x32x32x128x128, .f32⟩
  | .hbm, ⟨41, _⟩ => ⟨S8x32x32x128x128, .f32⟩
  | .hbm, ⟨42, _⟩ => ⟨S8x32x32x128x128, .f32⟩
  | .hbm, ⟨43, _⟩ => ⟨S_, .f32⟩
  | .hbm, ⟨44, _⟩ => ⟨S8x32x128x128, .f32⟩
  | .hbm, ⟨45, _⟩ => ⟨S8x32x128x128, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S32, .f32⟩
  | .hbm, ⟨50, _⟩ => ⟨S1x32x1x1, .f32⟩
  | .hbm, ⟨51, _⟩ => ⟨S8x32x128x128, .f32⟩
  | .hbm, ⟨52, _⟩ => ⟨S8x32x128x128, .f32⟩
  | .hbm, ⟨53, _⟩ => ⟨S32, .f32⟩
  | .hbm, ⟨54, _⟩ => ⟨S1x32x1x1, .f32⟩
  | .hbm, ⟨55, _⟩ => ⟨S8x32x128x128, .f32⟩
  | .hbm, ⟨56, _⟩ => ⟨S8x32x128x128, .f32⟩
  | .hbm, ⟨57, _⟩ => ⟨S1x32x1x1, .f32⟩
  | .hbm, ⟨58, _⟩ => ⟨S8x32x128x128, .f32⟩
  | .hbm, ⟨59, _⟩ => ⟨S8x32x128x128, .f32⟩
  | .hbm, ⟨60, _⟩ => ⟨S8x32x128x128, .f32⟩
  | .hbm, ⟨61, _⟩ => ⟨S_, .f32⟩
  | .hbm, ⟨62, _⟩ => ⟨S8x32x128x128, .f32⟩
  | .hbm, ⟨63, _⟩ => ⟨S8x32x128x128, .f32⟩
  | _, _ => ⟨S8x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call1_cst : Ref sig .tc := ⟨.hbm, 61, rfl⟩
abbrev main_call1_v0 : Ref sig .tc := ⟨.hbm, 62, rfl⟩
abbrev main_v44 : Ref sig .tc := ⟨.hbm, 63, rfl⟩

abbrev nD : Nat := 1
abbrev τ : Topo := Topo.v7x

variable {F : FTy → Type} [FloatOps F]

class Facts₀ : Prop where
  bcast_S8x32x128x128_S8x1x32x128x128_0_2_3_4 : S8x32x128x128.BroadcastsInDim S8x1x32x128x128 (![0, 2, 3, 4] : Fin 4 → Fin S8x1x32x128x128.rank)
  bcast_S32x32_S1x32x32x1x1_1_2 : S32x32.BroadcastsInDim S1x32x32x1x1 (![1, 2] : Fin 2 → Fin S1x32x32x1x1.rank)
  bcast_S8x1x32x128x128_S8x32x32x128x128_0_1_2_3_4 : S8x1x32x128x128.BroadcastsInDim S8x32x32x128x128 (![0, 1, 2, 3, 4] : Fin 5 → Fin S8x32x32x128x128.rank)
  bcast_S1x32x32x1x1_S8x32x32x128x128_0_1_2_3_4 : S1x32x32x1x1.BroadcastsInDim S8x32x32x128x128 (![0, 1, 2, 3, 4] : Fin 5 → Fin S8x32x32x128x128.rank)
  reducesTo_S8x32x32x128x128_S8x32x128x128_d2 : S8x32x32x128x128.ReducesTo [2] S8x32x128x128
  h_S_ : 0 < S_.numel
  bcast_S_S32 : S_.BroadcastsInDim S32 (![] : Fin 0 → Fin S32.rank)
  bcast_S32_S1x32x1x1_1 : S32.BroadcastsInDim S1x32x1x1 (![1] : Fin 1 → Fin S1x32x1x1.rank)
  bcast_S1x32x1x1_S8x32x128x128_0_1_2_3 : S1x32x1x1.BroadcastsInDim S8x32x128x128 (![0, 1, 2, 3] : Fin 4 → Fin S8x32x128x128.rank)
  bcast_S_S8x32x128x128 : S_.BroadcastsInDim S8x32x128x128 (![] : Fin 0 → Fin S8x32x128x128.rank)

variable [Facts₀]

class Facts : Prop extends Facts₀ where

variable [Facts]
-- ==== Proof.LayoutReads.lean ====
/-
  Reading the block's layout operations at an index.

  The kernel works on a block of two images, each of 32 channels of 128 × 128 pixels.  Channel `k` of such a
  block is cut out as a [2, 1, 128, 128] slice, squeezed to [2, 128, 128], given its unit axis back and spread
  over all 32 output channels; column `k` of a 32 × 32 weight matrix is cut out as [32, 1], squeezed to [32],
  laid out as [1, 32, 1, 1] and spread over the two images and all pixels; a per-channel parameter arrives as
  [1, 32], is squeezed to [32] and spread the same way.  Each lemma below reads ONE of these operations at an
  index written by its coordinates, as its operand at one index.
-/
import Idealize.ShloMosaic.Lib.Pipeline.Value
import Idealize.ShloMosaic.Lib.ValueIdx

namespace Cert.ResBlock

open Idealize.ShloMosaic Idealize.ShloMosaic.ValueIdx

/-- A block: two images of 32 channels. -/
abbrev Blk : Shape := ⟨4, ![2, 32, 128, 128]⟩
/-- One channel of a block, its unit axis kept. -/
abbrev Blk1 : Shape := ⟨4, ![2, 1, 128, 128]⟩
/-- One channel of a block, squeezed. -/
abbrev Pix : Shape := ⟨3, ![2, 128, 128]⟩
/-- A weight matrix, output channel by input channel. -/
abbrev Wt : Shape := ⟨2, ![32, 32]⟩
/-- One column of a weight matrix. -/
abbrev WtCol : Shape := ⟨2, ![32, 1]⟩
/-- A per-channel vector. -/
abbrev Chan : Shape := ⟨1, ![32]⟩
/-- A per-channel vector as the kernel is handed it. -/
abbrev ChanRow : Shape := ⟨2, ![1, 32]⟩
/-- A per-channel vector laid out against a block. -/
abbrev ChanBlk : Shape := ⟨4, ![1, 32, 1, 1]⟩

variable {α : Type}

/-- Channel `k` cut out of a block reads, at `(p, _, y, x)`, the block at `(p, k, y, x)`. -/
theorem slice_channel (k : Nat) (v : Blk.Idx → α) (h : Blk.Slices ![0, k, 0, 0] Blk1)
    (p : Fin 2) (z : Fin 1) (y x : Fin 128) :
    extractStridedSlice Blk1 ![0, k, 0, 0] v h (ix4 p z y x)
      = v (ix4 p ⟨k, Nat.lt_of_succ_le (h.2 1)⟩ y x) :=
  extractStridedSlice_apply _ _ _ _ _ (fun ax => by
    have hz : z.val = 0 := by omega
    match ax with
    | ⟨0, _⟩ => exact (Nat.zero_add _).symm
    | ⟨1, _⟩ => show k = k + z.val; omega
    | ⟨2, _⟩ => exact (Nat.zero_add _).symm
    | ⟨3, _⟩ => exact (Nat.zero_add _).symm)

/-- Squeezing the unit channel axis away: `(p, y, x)` reads `(p, 0, y, x)`. -/
theorem squeeze_channel (v : Blk1.Idx → α) (h : Blk1.ShapeCasts Pix) (p : Fin 2) (y x : Fin 128) :
    shapeCast Pix v h (ix3 p y x) = v (ix4 p (0 : Fin 1) y x) :=
  shapeCast_apply v h _ _ (by
    rw [Shape.rowMajor_val_four, Shape.rowMajor_val_three]
    show ((p.val * 1 + 0) * 128 + y.val) * 128 + x.val = (p.val * 128 + y.val) * 128 + x.val
    omega)

/-- Giving the unit channel axis back: `(p, _, y, x)` reads `(p, y, x)`. -/
theorem unsqueeze_channel (v : Pix.Idx → α) (h : Pix.ShapeCasts Blk1) (p : Fin 2) (z : Fin 1) (y x : Fin 128) :
    shapeCast Blk1 v h (ix4 p z y x) = v (ix3 p y x) :=
  shapeCast_apply v h _ _ (by
    have hz : z.val = 0 := by omega
    rw [Shape.rowMajor_val_four, Shape.rowMajor_val_three]
    show (p.val * 128 + y.val) * 128 + x.val = ((p.val * 1 + z.val) * 128 + y.val) * 128 + x.val
    omega)

/-- One channel spread over all 32: `(p, c, y, x)` reads `(p, 0, y, x)`. -/
theorem spread_channel (v : Blk1.Idx → α) (h : Blk1.Broadcasts Blk) (p : Fin 2) (c : Fin 32) (y x : Fin 128) :
    broadcastTo Blk v h (ix4 p c y x) = v (ix4 p (0 : Fin 1) y x) := by
  refine broadcastTo_apply v h (ix4 p c y x) (ix4 p (0 : Fin 1) y x) fun ax => ?_
  match ax with
  | ⟨0, _⟩ => rfl
  | ⟨1, _⟩ => rfl
  | ⟨2, _⟩ => rfl
  | ⟨3, _⟩ => rfl

/-- Column `k` cut out of a weight matrix reads, at `(c, _)`, the matrix at `(c, k)`. -/
theorem slice_column (k : Nat) (v : Wt.Idx → α) (h : Wt.Slices ![0, k] WtCol) (c : Fin 32) (z : Fin 1) :
    extractStridedSlice WtCol ![0, k] v h (ix2 c z) = v (ix2 c ⟨k, Nat.lt_of_succ_le (h.2 1)⟩) :=
  extractStridedSlice_apply _ _ _ _ _ (fun ax => by
    have hz : z.val = 0 := by omega
    match ax with
    | ⟨0, _⟩ => exact (Nat.zero_add _).symm
    | ⟨1, _⟩ => show k = k + z.val; omega)

/-- A column squeezed to a vector: `c` reads `(c, 0)`. -/
theorem squeeze_column (v : WtCol.Idx → α) (h : WtCol.ShapeCasts Chan) (c : Fin 32) :
    shapeCast Chan v h (ix1 c) = v (ix2 c (0 : Fin 1)) :=
  shapeCast_apply v h _ _ (by
    rw [Shape.rowMajor_val_two, Shape.rowMajor_val_one]
    show c.val * 1 + 0 = c.val
    omega)

/-- A one-row matrix squeezed to a vector: `c` reads `(0, c)`. -/
theorem squeeze_row (v : ChanRow.Idx → α) (h : ChanRow.ShapeCasts Chan) (c : Fin 32) :
    shapeCast Chan v h (ix1 c) = v (ix2 (0 : Fin 1) c) :=
  shapeCast_apply v h _ _ (by
    rw [Shape.rowMajor_val_two, Shape.rowMajor_val_one]
    show 0 * 32 + c.val = c.val
    omega)

/-- A per-channel vector laid out against a block: `(_, c, _, _)` reads `c`. -/
theorem lay_channels (v : Chan.Idx → α) (h : Chan.ShapeCasts ChanBlk) (a : Fin 1) (c : Fin 32) (b d : Fin 1) :
    shapeCast ChanBlk v h (ix4 a c b d) = v (ix1 c) :=
  shapeCast_apply v h _ _ (by
    have ha : a.val = 0 := by omega
    have hb : b.val = 0 := by omega
    have hd : d.val = 0 := by omega
    rw [Shape.rowMajor_val_four, Shape.rowMajor_val_one]
    show c.val = ((a.val * 32 + c.val) * 1 + b.val) * 1 + d.val
    omega)

/-- A per-channel layout spread over the block: `(p, c, y, x)` reads `(0, c, 0, 0)`. -/
theorem spread_channels (v : ChanBlk.Idx → α) (h : ChanBlk.Broadcasts Blk) (p : Fin 2) (c : Fin 32) (y x : Fin 128) :
    broadcastTo Blk v h (ix4 p c y x) = v (ix4 (0 : Fin 1) c (0 : Fin 1) (0 : Fin 1)) := by
  refine broadcastTo_apply v h (ix4 p c y x) (ix4 (0 : Fin 1) c (0 : Fin 1) (0 : Fin 1)) fun ax => ?_
  match ax with
  | ⟨0, _⟩ => rfl
  | ⟨1, _⟩ => rfl
  | ⟨2, _⟩ => rfl
  | ⟨3, _⟩ => rfl

end Cert.ResBlock
-- ==== Proof.Spec.lean ====
/-
  What the residual block computes at one pixel, on the extended reals.

  At a pixel the block sees the 32 channel values `u`.  An adder layer replaces the dot product of a
  convolution by a negated L1 distance: output channel `c` is `-∑ ci, |u ci - W c ci|`.  A batch norm with
  running statistics is the affine map `(y - μ) · (γ · rsqrt (σ² + ε)) + β`.  The block is adder, norm,
  ReLU, adder, norm, plus the input, ReLU.

  The kernel adds the 32 distances one at a time, from zero, left to right; the reference sums them in one
  reduction.  Addition on the extended reals is commutative and associative, so the two agree whatever the
  inputs: `runSum_eq_sum`.
-/
import Mathlib.Algebra.BigOperators.Fin
import Idealize.ShloMosaic.PureOps.Ideal
import Idealize.ShloMosaic.Lib.ValueIdx

noncomputable section

namespace Cert.ResBlock

open Idealize.ShloMosaic Idealize.ShloMosaic.ValueIdx

/-- The batch norm's epsilon, the same float word on both sides. -/
abbrev eps : EReal := Ideal.ofBits .f32 0x3727C5AC#32

/-- `|a - b|`: the larger of the difference and its negative. -/
def dist (a b : EReal) : EReal := max (a - b) (-(a - b))

/-- The first `k` terms of `f` added one at a time, from zero, left to right. -/
def runSum (f : Fin 32 → EReal) : (k : Nat) → k ≤ 32 → EReal
  | 0, _ => 0
  | k + 1, h => runSum f k (Nat.le_of_succ_le h) + f ⟨k, h⟩

theorem runSum_eq_sum_castLE (f : Fin 32 → EReal) (k : Nat) (h : k ≤ 32) :
    runSum f k h = ∑ i : Fin k, f (Fin.castLE h i) := by
  induction k with
  | zero => simp [runSum]
  | succ k ih =>
    rw [runSum, ih (Nat.le_of_succ_le h), Fin.sum_univ_castSucc]
    rfl

/-- All 32 terms added one at a time are their sum. -/
theorem runSum_eq_sum (f : Fin 32 → EReal) : runSum f 32 (Nat.le_refl 32) = ∑ ci : Fin 32, f ci := by
  rw [runSum_eq_sum_castLE]
  rfl

/-- The adder layer at one output channel: minus the L1 distance between the pixel's channels `u` and the
    channel's weights `w`. -/
def adder (u w : Fin 32 → EReal) : EReal := -(∑ ci : Fin 32, dist (u ci) (w ci))

/-- Batch norm with running statistics at one channel. -/
def bn (y γ β μ var : EReal) : EReal := (y - μ) * (γ * Ideal.rsqrt (var + eps)) + β

/-- The first half at channel `c`: adder, norm, ReLU. -/
def hidden (u : Fin 32 → EReal) (W1 : Fin 32 → Fin 32 → EReal) (γ1 β1 μ1 var1 : Fin 32 → EReal) (c : Fin 32) : EReal :=
  max (bn (adder u (W1 c)) (γ1 c) (β1 c) (μ1 c) (var1 c)) 0

/-- The whole block at output channel `c` of a pixel whose 32 channel values are `u`. -/
def point (u : Fin 32 → EReal) (W1 W2 : Fin 32 → Fin 32 → EReal) (γ1 β1 μ1 var1 γ2 β2 μ2 var2 : Fin 32 → EReal)
    (c : Fin 32) : EReal :=
  max (bn (adder (hidden u W1 γ1 β1 μ1 var1) (W2 c)) (γ2 c) (β2 c) (μ2 c) (var2 c) + u c) 0

/-- The adder layer as the kernel computes it: zero minus the running sum from zero. -/
theorem adder_eq_runSum (u w : Fin 32 → EReal) :
    0 - runSum (fun ci => dist (u ci) (w ci)) 32 (Nat.le_refl 32) = adder u w := by
  rw [runSum_eq_sum, zero_sub]
  rfl

/-- The block at a pixel as the kernel computes it: both adder layers as running sums. -/
theorem point_eq_runSum (u : Fin 32 → EReal) (W1 W2 : Fin 32 → Fin 32 → EReal)
    (γ1 β1 μ1 var1 γ2 β2 μ2 var2 : Fin 32 → EReal) (c : Fin 32) :
    point u W1 W2 γ1 β1 μ1 var1 γ2 β2 μ2 var2 c
      = max (bn (0 - runSum (fun ci => dist
                (max (bn (0 - runSum (fun cj => dist (u cj) (W1 ci cj)) 32 (Nat.le_refl 32))
                  (γ1 ci) (β1 ci) (μ1 ci) (var1 ci)) 0) (W2 c ci)) 32 (Nat.le_refl 32))
              (γ2 c) (β2 c) (μ2 c) (var2 c) + u c) 0 := by
  simp only [point, hidden, ← adder_eq_runSum]

/-- The adder layer as the reference computes it: the negated sum onto a zero initial value. -/
theorem adder_eq_zero_add (u w : Fin 32 → EReal) :
    -(0 + ∑ ci : Fin 32, dist (u ci) (w ci)) = adder u w := by
  rw [zero_add]
  rfl

/-- The residual block over whole arrays: entry `(b, c, y, x)` of the result is `point` at the 32 channel values of
    pixel `(y, x)` of image `b`. -/
def resblock (X : (⟨4, ![8, 32, 128, 128]⟩ : Shape).Idx → EReal) (W1 W2 : (⟨2, ![32, 32]⟩ : Shape).Idx → EReal)
    (γ1 β1 μ1 var1 γ2 β2 μ2 var2 : (⟨1, ![32]⟩ : Shape).Idx → EReal) :
    (⟨4, ![8, 32, 128, 128]⟩ : Shape).Idx → EReal :=
  fun i => point (fun ci => X (ix4 (i 0) ci (i 2) (i 3))) (fun co ci => W1 (ix2 co ci)) (fun co ci => W2 (ix2 co ci))
    (fun ch => γ1 (ix1 ch)) (fun ch => β1 (ix1 ch)) (fun ch => μ1 (ix1 ch)) (fun ch => var1 (ix1 ch))
    (fun ch => γ2 (ix1 ch)) (fun ch => β2 (ix1 ch)) (fun ch => μ2 (ix1 ch)) (fun ch => var2 (ix1 ch)) (i 1)

end Cert.ResBlock
-- ==== Proof.KernelPoint.lean ====
/-
  The kernel's block at one index.

  The body loads a block of two images and the parameters whole, computes with whole-block vector operations
  and stores one block.  Read at `(p, c, y, x)` — image `p` of the block, channel `c`, pixel `(y, x)` —
  every layout operation reads its operand at one index and every arithmetic operation acts entry by entry,
  so the stored block at that index is the residual block's value at the pixel's 32 channel values:
  first the hidden activation at every channel (`hidden_at`), then the output from those (`out_at`),
  with each adder layer's 32 distances added one at a time from zero.
-/
import proofs.«115080_j15298673509110_1_alg».proof.Proof.Gen.KernelIdeal.Frame
import proofs.«115080_j15298673509110_1_alg».proof.Proof.LayoutReads
import proofs.«115080_j15298673509110_1_alg».proof.Proof.Spec
import Idealize.ShloMosaic.PureOps.Ideal.Laws

set_option maxRecDepth 16384

noncomputable section

namespace Cert.ResBlock

open Idealize.ShloMosaic Idealize.ShloMosaic.ValueIdx Cert.KernelIdeal Cert.KernelIdeal.Gen

theorem absf_apply {s : Shape} {φ : FTy} (a : FVec Ideal s φ) (i : s.Idx) : absf a i = max (a i) (-(a i)) := rfl
theorem rsqrt_apply {s : Shape} {φ : FTy} (a : FVec Ideal s φ) (i : s.Idx) : rsqrt a i = Ideal.rsqrt (a i) := rfl

/-- The hidden activation (adder, norm, ReLU) the body computes, at one index, from the loaded block `x0`, the first
    weights `x1` and the first norm's parameters. -/
theorem hidden_at (x0 : Vec Ideal S2x32x128x128 .f32) (x1 : Vec Ideal S32x32 .f32) (x2 x3 x4 x5 : Vec Ideal S1x32 .f32)
    (p : Fin 2) (c : Fin 32) (y x : Fin 128) :
    k0_pay18 (k0_pay15 x0 x1 (k0_pay12 x0 x1 (k0_pay10 x0 x1 (k0_pay7 x0 x1 (k0_pay5 x0 x1 (k0_pay2 x0 x1) (k0_pay3 x1) (k0_pay4 x0)) (k0_pay6 x0 x1)) (k0_pay8 x0) (k0_pay9 x1)) (k0_pay11 x0 x1)) (k0_pay13 x0) (k0_pay14 x1)) (k0_pay16 x0) (k0_pay17 x1) x2 x3 x4 x5 (ix4 p c y x)
      = max (bn (0 - runSum (fun ci => dist (x0 (ix4 p ci y x)) (x1 (ix2 c ci))) 32 (Nat.le_refl 32))
          (x2 (ix2 (0 : Fin 1) c)) (x3 (ix2 (0 : Fin 1) c)) (x4 (ix2 (0 : Fin 1) c)) (x5 (ix2 (0 : Fin 1) c))) 0 := by
  simp only [k0_pay18, k0_pay17, k0_pay16, k0_pay15, k0_pay14, k0_pay13, k0_pay12, k0_pay11, k0_pay10, k0_pay9, k0_pay8, k0_pay7,
    k0_pay6, k0_pay5, k0_pay4, k0_pay3, k0_pay2,
    maximumf_apply, addf_apply, subf_apply, mulf_apply, absf_apply, rsqrt_apply, broadcast_apply,
    spread_channel, unsqueeze_channel, squeeze_channel, slice_channel,
    spread_channels, lay_channels, squeeze_column, squeeze_row, slice_column,
    Ideal.ofBits_def, Ideal.ofBits_zero_f32]
  rfl

/-- The stored value at one index from the hidden activation (the payload `k0_pay18 A B C …`) read along the
    channels, the second weights `x6`, the second norm's parameters and the loaded block. -/
theorem out_at (A B C : FVec Ideal S2x32x128x128 .f32) (x0 : Vec Ideal S2x32x128x128 .f32) (x6 : Vec Ideal S32x32 .f32)
    (x2 x3 x4 x5 x7 x8 x9 x10 : Vec Ideal S1x32 .f32) (p : Fin 2) (c : Fin 32) (y x : Fin 128) :
    (k0_pay1 x0 (k0_pay35 (k0_pay18 A B C x2 x3 x4 x5) x6 (k0_pay32 (k0_pay18 A B C x2 x3 x4 x5) x6 (k0_pay29 (k0_pay18 A B C x2 x3 x4 x5) x6 (k0_pay27 (k0_pay18 A B C x2 x3 x4 x5) x6 (k0_pay24 (k0_pay18 A B C x2 x3 x4 x5) x6 (k0_pay22 (k0_pay18 A B C x2 x3 x4 x5) x6 (k0_pay19 A B C x2 x3 x4 x5 x6) (k0_pay20 x6) (k0_pay21 A B C x2 x3 x4 x5)) (k0_pay23 (k0_pay18 A B C x2 x3 x4 x5) x6)) (k0_pay25 (k0_pay18 A B C x2 x3 x4 x5)) (k0_pay26 x6)) (k0_pay28 (k0_pay18 A B C x2 x3 x4 x5) x6)) (k0_pay30 (k0_pay18 A B C x2 x3 x4 x5)) (k0_pay31 x6)) (k0_pay33 (k0_pay18 A B C x2 x3 x4 x5)) (k0_pay34 x6)) (k0_pay36 x8) (k0_pay37 x9) (k0_pay38 x7 x10)) (ix4 p c y x)
      = max (bn (0 - runSum (fun ci => dist (k0_pay18 A B C x2 x3 x4 x5 (ix4 p ci y x)) (x6 (ix2 c ci))) 32 (Nat.le_refl 32))
          (x7 (ix2 (0 : Fin 1) c)) (x8 (ix2 (0 : Fin 1) c)) (x9 (ix2 (0 : Fin 1) c)) (x10 (ix2 (0 : Fin 1) c))
          + x0 (ix4 p c y x)) 0 := by
  simp only [k0_pay38, k0_pay37, k0_pay36, k0_pay35, k0_pay34, k0_pay33, k0_pay32, k0_pay31, k0_pay30, k0_pay29, k0_pay28,
    k0_pay27, k0_pay26, k0_pay25, k0_pay24, k0_pay23, k0_pay22, k0_pay21, k0_pay20, k0_pay19, k0_pay1,
    maximumf_apply, addf_apply, subf_apply, mulf_apply, absf_apply, rsqrt_apply, broadcast_apply,
    spread_channel, unsqueeze_channel, squeeze_channel, slice_channel,
    spread_channels, lay_channels, squeeze_column, squeeze_row, slice_column,
    Ideal.ofBits_def, Ideal.ofBits_zero_f32]
  rfl

theorem offsets4 : (![0, 0, 0, 0] : Fin 4 → Nat) = fun _ => 0 := funext fun a => by fin_cases a <;> rfl
theorem offsets2 : (![0, 0] : Fin 2 → Nat) = fun _ => 0 := funext fun a => by fin_cases a <;> rfl

/-- What the body leaves in the output block, at one index, is the residual block's value at that pixel. -/
theorem block_at (x0 : Vec Ideal S2x32x128x128 .f32) (x1 x6 : Vec Ideal S32x32 .f32)
    (x2 x3 x4 x5 x7 x8 x9 x10 : Vec Ideal S1x32 .f32) (p : Fin 2) (c : Fin 32) (y x : Fin 128) :
    out0_11 x0 x1 x2 x3 x4 x5 x6 x7 x8 x9 x10 (ix4 p c y x)
      = point (fun ci => x0 (ix4 p ci y x)) (fun co ci => x1 (ix2 co ci)) (fun co ci => x6 (ix2 co ci))
          (fun ch => x2 (ix2 (0 : Fin 1) ch)) (fun ch => x3 (ix2 (0 : Fin 1) ch)) (fun ch => x4 (ix2 (0 : Fin 1) ch))
          (fun ch => x5 (ix2 (0 : Fin 1) ch)) (fun ch => x7 (ix2 (0 : Fin 1) ch)) (fun ch => x8 (ix2 (0 : Fin 1) ch))
          (fun ch => x9 (ix2 (0 : Fin 1) ch)) (fun ch => x10 (ix2 (0 : Fin 1) ch)) c := by
  unfold out0_11
  rw [View.canon_unit_zero offsets4]
  simp only [View.ld_unit_zero (S := S2x32x128x128) offsets4, View.ld_unit_zero (S := S32x32) offsets2,
    View.ld_unit_zero (S := S1x32) offsets2]
  rw [out_at, point_eq_runSum]
  simp only [hidden_at]

end Cert.ResBlock
-- ==== Proof.KernelValue.lean ====
/-
  From the blocks to the array.

  The grid has four points; point `t` works on images `2t` and `2t + 1`: it fetches that block of the input,
  the two weight matrices and the eight per-channel parameters whole (each parameter reshaped to one row by
  the host before the call), and writes back that block of the result.  So entry `(b, c, y, x)` of the result
  array is written once, by point `b / 2`, and holds the residual block's value at that pixel: the array after
  the run is `resblock` of the argument arrays.
-/
import proofs.«115080_j15298673509110_1_alg».proof.Proof.Gen.KernelIdeal.Frame
import proofs.«115080_j15298673509110_1_alg».proof.Proof.KernelPoint
import Idealize.ShloMosaic.Lib.Pipeline.Value
import Idealize.ShloMosaic.Lib.StableHlo.Run

set_option maxRecDepth 16384

noncomputable section

namespace Cert.ResBlock.KernelValue

open Cert.ResBlock Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The parameters as the region finds them: each a one-row reshape of its argument -/

theorem row_v0 (c : Dev nD) : (V m c main_v0 : S1x32.Idx → EReal)
    = shapeCast S1x32 (m ((c : Thread nD τ).loc main_arg3)) shapeCasts_S32_S1x32 := by
  dsimp only [V, hostOps0]
  after_results
  rfl

theorem row_v1 (c : Dev nD) : (V m c main_v1 : S1x32.Idx → EReal)
    = shapeCast S1x32 (m ((c : Thread nD τ).loc main_arg4)) shapeCasts_S32_S1x32 := by
  dsimp only [V, hostOps0]
  after_results
  rfl

theorem row_v2 (c : Dev nD) : (V m c main_v2 : S1x32.Idx → EReal)
    = shapeCast S1x32 (m ((c : Thread nD τ).loc main_arg5)) shapeCasts_S32_S1x32 := by
  dsimp only [V, hostOps0]
  after_results
  rfl

theorem row_v3 (c : Dev nD) : (V m c main_v3 : S1x32.Idx → EReal)
    = shapeCast S1x32 (m ((c : Thread nD τ).loc main_arg6)) shapeCasts_S32_S1x32 := by
  dsimp only [V, hostOps0]
  after_results
  rfl

theorem row_v4 (c : Dev nD) : (V m c main_v4 : S1x32.Idx → EReal)
    = shapeCast S1x32 (m ((c : Thread nD τ).loc main_arg7)) shapeCasts_S32_S1x32 := by
  dsimp only [V, hostOps0]
  after_results
  rfl

theorem row_v5 (c : Dev nD) : (V m c main_v5 : S1x32.Idx → EReal)
    = shapeCast S1x32 (m ((c : Thread nD τ).loc main_arg8)) shapeCasts_S32_S1x32 := by
  dsimp only [V, hostOps0]
  after_results
  rfl

theorem row_v6 (c : Dev nD) : (V m c main_v6 : S1x32.Idx → EReal)
    = shapeCast S1x32 (m ((c : Thread nD τ).loc main_arg9)) shapeCasts_S32_S1x32 := by
  dsimp only [V, hostOps0]
  after_results
  rfl

theorem row_v7 (c : Dev nD) : (V m c main_v7 : S1x32.Idx → EReal)
    = shapeCast S1x32 (m ((c : Thread nD τ).loc main_arg10)) shapeCasts_S32_S1x32 := by
  dsimp only [V, hostOps0]
  after_results
  rfl

/-- A vector reshaped to one row, read at `(0, ch)`, is the vector at `ch`. -/
theorem row_apply (v : S32.Idx → EReal) (ch : Fin 32) :
    shapeCast S1x32 v shapeCasts_S32_S1x32 (ix2 (0 : Fin 1) ch) = v (ix1 ch) :=
  shapeCast_apply v _ _ _ (by
    rw [Shape.rowMajor_val_two, Shape.rowMajor_val_one]
    show ch.val = 0 * 32 + ch.val
    omega)

/-! ## The blocks of a point, by literal types -/

/-- The input block of point `t`. -/
abbrev xblk (c : Dev nD) (t : Fin cfg0.N) : Vec Ideal S2x32x128x128 .f32 := iblk m c 0 t
/-- The two weight matrices as point `t` holds them. -/
abbrev w1blk (c : Dev nD) (t : Fin cfg0.N) : Vec Ideal S32x32 .f32 := iblk m c 1 t
abbrev w2blk (c : Dev nD) (t : Fin cfg0.N) : Vec Ideal S32x32 .f32 := iblk m c 6 t
/-- The eight parameter rows as point `t` holds them. -/
abbrev p2blk (c : Dev nD) (t : Fin cfg0.N) : Vec Ideal S1x32 .f32 := iblk m c 2 t
abbrev p3blk (c : Dev nD) (t : Fin cfg0.N) : Vec Ideal S1x32 .f32 := iblk m c 3 t
abbrev p4blk (c : Dev nD) (t : Fin cfg0.N) : Vec Ideal S1x32 .f32 := iblk m c 4 t
abbrev p5blk (c : Dev nD) (t : Fin cfg0.N) : Vec Ideal S1x32 .f32 := iblk m c 5 t
abbrev p7blk (c : Dev nD) (t : Fin cfg0.N) : Vec Ideal S1x32 .f32 := iblk m c 7 t
abbrev p8blk (c : Dev nD) (t : Fin cfg0.N) : Vec Ideal S1x32 .f32 := iblk m c 8 t
abbrev p9blk (c : Dev nD) (t : Fin cfg0.N) : Vec Ideal S1x32 .f32 := iblk m c 9 t
abbrev p10blk (c : Dev nD) (t : Fin cfg0.N) : Vec Ideal S1x32 .f32 := iblk m c 10 t

/-- The printed index maps over the grid: the input's and the result's blocks move along the images with the point,
    every other window stays at its one block. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_11.index t (0 : Fin 4) = t.val ∧ win0_11.index t (1 : Fin 4) = 0 ∧ win0_11.index t (2 : Fin 4) = 0 ∧ win0_11.index t (3 : Fin 4) = 0
    ∧ win0_1.index t (0 : Fin 2) = 0 ∧ win0_1.index t (1 : Fin 2) = 0
    ∧ win0_6.index t (0 : Fin 2) = 0 ∧ win0_6.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Image `p` of point `t`'s block is image `2t + p` of the array. -/
abbrev img (t : Fin cfg0.N) (p : Fin 2) : Fin 8 := ⟨2 * t.val + p.val, by have ht : t.val < 4 := t.isLt; have hp : p.val < 2 := p.isLt; omega⟩

theorem xblk_apply (c : Dev nD) (t : Fin cfg0.N) (p : Fin 2) (ci : Fin 32) (y x : Fin 128) :
    xblk m c t (ix4 p ci y x) = V m c main_arg0 (ix4 (img t p) ci y x) := by
  obtain ⟨e0, e1, e2, e3, -⟩ := idx_facts t
  show V m c main_arg0 (((cfg0.win 0).blk t).view.emb (ix4 p ci y x)) = _
  refine congrArg (V m c main_arg0) (funext fun a => Fin.ext ?_)
  match a with
  | ⟨0, _⟩ => show win0_0.index t (0 : Fin 4) * 2 + 1 * p.val = 2 * t.val + p.val; omega
  | ⟨1, _⟩ => show win0_0.index t (1 : Fin 4) * 32 + 1 * ci.val = ci.val; omega
  | ⟨2, _⟩ => show win0_0.index t (2 : Fin 4) * 128 + 1 * y.val = y.val; omega
  | ⟨3, _⟩ => show win0_0.index t (3 : Fin 4) * 128 + 1 * x.val = x.val; omega

theorem w1blk_apply (c : Dev nD) (t : Fin cfg0.N) (co ci : Fin 32) :
    w1blk m c t (ix2 co ci) = V m c main_arg1 (ix2 co ci) := by
  have e := idx_facts t
  show V m c main_arg1 (((cfg0.win 1).blk t).view.emb (ix2 co ci)) = _
  refine congrArg (V m c main_arg1) (funext fun a => Fin.ext ?_)
  match a with
  | ⟨0, _⟩ => show win0_1.index t (0 : Fin 2) * 32 + 1 * co.val = co.val; omega
  | ⟨1, _⟩ => show win0_1.index t (1 : Fin 2) * 32 + 1 * ci.val = ci.val; omega

theorem w2blk_apply (c : Dev nD) (t : Fin cfg0.N) (co ci : Fin 32) :
    w2blk m c t (ix2 co ci) = V m c main_arg2 (ix2 co ci) := by
  have e := idx_facts t
  show V m c main_arg2 (((cfg0.win 6).blk t).view.emb (ix2 co ci)) = _
  refine congrArg (V m c main_arg2) (funext fun a => Fin.ext ?_)
  match a with
  | ⟨0, _⟩ => show win0_6.index t (0 : Fin 2) * 32 + 1 * co.val = co.val; omega
  | ⟨1, _⟩ => show win0_6.index t (1 : Fin 2) * 32 + 1 * ci.val = ci.val; omega

theorem p2blk_apply (c : Dev nD) (t : Fin cfg0.N) (ch : Fin 32) :
    p2blk m c t (ix2 (0 : Fin 1) ch) = m ((c : Thread nD τ).loc main_arg3) (ix1 ch) := by
  have e := idx_facts t
  refine Eq.trans ?_ (row_apply (m ((c : Thread nD τ).loc main_arg3)) ch)
  rw [← row_v0 m c]
  show V m c main_v0 (((cfg0.win 2).blk t).view.emb (ix2 (0 : Fin 1) ch)) = _
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 32 + 1 * ch.val = ch.val; omega

theorem p3blk_apply (c : Dev nD) (t : Fin cfg0.N) (ch : Fin 32) :
    p3blk m c t (ix2 (0 : Fin 1) ch) = m ((c : Thread nD τ).loc main_arg4) (ix1 ch) := by
  have e := idx_facts t
  refine Eq.trans ?_ (row_apply (m ((c : Thread nD τ).loc main_arg4)) ch)
  rw [← row_v1 m c]
  show V m c main_v1 (((cfg0.win 3).blk t).view.emb (ix2 (0 : Fin 1) ch)) = _
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 32 + 1 * ch.val = ch.val; omega

theorem p4blk_apply (c : Dev nD) (t : Fin cfg0.N) (ch : Fin 32) :
    p4blk m c t (ix2 (0 : Fin 1) ch) = m ((c : Thread nD τ).loc main_arg5) (ix1 ch) := by
  have e := idx_facts t
  refine Eq.trans ?_ (row_apply (m ((c : Thread nD τ).loc main_arg5)) ch)
  rw [← row_v2 m c]
  show V m c main_v2 (((cfg0.win 4).blk t).view.emb (ix2 (0 : Fin 1) ch)) = _
  refine congrArg (V m c main_v2) (funext fun a => Fin.ext ?_)
  match a with
  | ⟨0, _⟩ => show win0_4.index t (0 : Fin 2) * 1 + 1 * 0 = 0; omega
  | ⟨1, _⟩ => show win0_4.index t (1 : Fin 2) * 32 + 1 * ch.val = ch.val; omega

theorem p5blk_apply (c : Dev nD) (t : Fin cfg0.N) (ch : Fin 32) :
    p5blk m c t (ix2 (0 : Fin 1) ch) = m ((c : Thread nD τ).loc main_arg6) (ix1 ch) := by
  have e := idx_facts t
  refine Eq.trans ?_ (row_apply (m ((c : Thread nD τ).loc main_arg6)) ch)
  rw [← row_v3 m c]
  show V m c main_v3 (((cfg0.win 5).blk t).view.emb (ix2 (0 : Fin 1) ch)) = _
  refine congrArg (V m c main_v3) (funext fun a => Fin.ext ?_)
  match a with
  | ⟨0, _⟩ => show win0_5.index t (0 : Fin 2) * 1 + 1 * 0 = 0; omega
  | ⟨1, _⟩ => show win0_5.index t (1 : Fin 2) * 32 + 1 * ch.val = ch.val; omega

theorem p7blk_apply (c : Dev nD) (t : Fin cfg0.N) (ch : Fin 32) :
    p7blk m c t (ix2 (0 : Fin 1) ch) = m ((c : Thread nD τ).loc main_arg7) (ix1 ch) := by
  have e := idx_facts t
  refine Eq.trans ?_ (row_apply (m ((c : Thread nD τ).loc main_arg7)) ch)
  rw [← row_v4 m c]
  show V m c main_v4 (((cfg0.win 7).blk t).view.emb (ix2 (0 : Fin 1) ch)) = _
  refine congrArg (V m c main_v4) (funext fun a => Fin.ext ?_)
  match a with
  | ⟨0, _⟩ => show win0_7.index t (0 : Fin 2) * 1 + 1 * 0 = 0; omega
  | ⟨1, _⟩ => show win0_7.index t (1 : Fin 2) * 32 + 1 * ch.val = ch.val; omega

theorem p8blk_apply (c : Dev nD) (t : Fin cfg0.N) (ch : Fin 32) :
    p8blk m c t (ix2 (0 : Fin 1) ch) = m ((c : Thread nD τ).loc main_arg8) (ix1 ch) := by
  have e := idx_facts t
  refine Eq.trans ?_ (row_apply (m ((c : Thread nD τ).loc main_arg8)) ch)
  rw [← row_v5 m c]
  show V m c main_v5 (((cfg0.win 8).blk t).view.emb (ix2 (0 : Fin 1) ch)) = _
  refine congrArg (V m c main_v5) (funext fun a => Fin.ext ?_)
  match a with
  | ⟨0, _⟩ => show win0_8.index t (0 : Fin 2) * 1 + 1 * 0 = 0; omega
  | ⟨1, _⟩ => show win0_8.index t (1 : Fin 2) * 32 + 1 * ch.val = ch.val; omega

theorem p9blk_apply (c : Dev nD) (t : Fin cfg0.N) (ch : Fin 32) :
    p9blk m c t (ix2 (0 : Fin 1) ch) = m ((c : Thread nD τ).loc main_arg9) (ix1 ch) := by
  have e := idx_facts t
  refine Eq.trans ?_ (row_apply (m ((c : Thread nD τ).loc main_arg9)) ch)
  rw [← row_v6 m c]
  show V m c main_v6 (((cfg0.win 9).blk t).view.emb (ix2 (0 : Fin 1) ch)) = _
  refine congrArg (V m c main_v6) (funext fun a => Fin.ext ?_)
  match a with
  | ⟨0, _⟩ => show win0_9.index t (0 : Fin 2) * 1 + 1 * 0 = 0; omega
  | ⟨1, _⟩ => show win0_9.index t (1 : Fin 2) * 32 + 1 * ch.val = ch.val; omega

theorem p10blk_apply (c : Dev nD) (t : Fin cfg0.N) (ch : Fin 32) :
    p10blk m c t (ix2 (0 : Fin 1) ch) = m ((c : Thread nD τ).loc main_arg10) (ix1 ch) := by
  have e := idx_facts t
  refine Eq.trans ?_ (row_apply (m ((c : Thread nD τ).loc main_arg10)) ch)
  rw [← row_v7 m c]
  show V m c main_v7 (((cfg0.win 10).blk t).view.emb (ix2 (0 : Fin 1) ch)) = _
  refine congrArg (V m c main_v7) (funext fun a => Fin.ext ?_)
  match a with
  | ⟨0, _⟩ => show win0_10.index t (0 : Fin 2) * 1 + 1 * 0 = 0; omega
  | ⟨1, _⟩ => show win0_10.index t (1 : Fin 2) * 32 + 1 * ch.val = ch.val; omega

/-! ## What a point writes back, the cover, the array -/

/-- The residual block of the argument arrays as the region finds them. -/
abbrev result (c : Dev nD) : S8x32x128x128.Idx → EReal :=
  resblock (V m c main_arg0) (V m c main_arg1) (V m c main_arg2)
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- Entry `(p, ch, y, x)` of point `t`'s block of the result array is entry `(2t + p, ch, y, x)` of the array. -/
theorem out_emb (t : Fin cfg0.N) (p : Fin 2) (ch : Fin 32) (y x : Fin 128) :
    ((cfg0.win 11).blk t).view.emb (ix4 p ch y x) = ix4 (img t p) ch y x := by
  have e := idx_facts t
  refine funext fun a => Fin.ext ?_
  match a with
  | ⟨0, _⟩ => show win0_11.index t (0 : Fin 4) * 2 + 1 * p.val = 2 * t.val + p.val; omega
  | ⟨1, _⟩ => show win0_11.index t (1 : Fin 4) * 32 + 1 * ch.val = ch.val; omega
  | ⟨2, _⟩ => show win0_11.index t (2 : Fin 4) * 128 + 1 * y.val = y.val; omega
  | ⟨3, _⟩ => show win0_11.index t (3 : Fin 4) * 128 + 1 * x.val = x.val; omega

/-- WHAT POINT `t` WRITES BACK is block `t` of the residual block of the argument arrays. -/
theorem flushed_eq (c : Dev nD) (t : Fin cfg0.N) :
    (dats m 0 c).flushed 11 t = ((cfg0.win 11).blk t).view.read (Elt Ideal) (result m c) := by
  show (cfg0.win 11).cut (grid0.coords t) ((dats m 0 c).after 11 t) = _
  rw [after0_11]
  funext j
  obtain ⟨p, ch, y, x, rfl⟩ : ∃ (p : Fin 2) (ch : Fin 32) (y x : Fin 128), j = ix4 p ch y x :=
    ⟨j 0, j 1, j 2, j 3, eq_ix4 j⟩
  show out0_11 (xblk m c t) (w1blk m c t) (p2blk m c t) (p3blk m c t) (p4blk m c t) (p5blk m c t) (w2blk m c t)
      (p7blk m c t) (p8blk m c t) (p9blk m c t) (p10blk m c t) (ix4 p ch y x)
    = result m c (((cfg0.win 11).blk t).view.emb (ix4 p ch y x))
  rw [out_emb t p ch y x]
  refine (block_at (xblk m c t) (w1blk m c t) (w2blk m c t) (p2blk m c t) (p3blk m c t) (p4blk m c t) (p5blk m c t)
      (p7blk m c t) (p8blk m c t) (p9blk m c t) (p10blk m c t) p ch y x).trans ?_
  simp only [xblk_apply, w1blk_apply, w2blk_apply, p2blk_apply, p3blk_apply, p4blk_apply, p5blk_apply,
    p7blk_apply, p8blk_apply, p9blk_apply, p10blk_apply]
  rfl

/-- An index of the array is in point `t`'s block iff each coordinate is in the block's range on its axis. -/
theorem mem_blk (t : Fin cfg0.N) (i : S8x32x128x128.Idx) :
    i ∈ ((cfg0.win 11).blk t).view.set ↔ ∀ a : Fin 4, win0_11.index t a * S2x32x128x128.size a ≤ (i a).val
      ∧ (i a).val < win0_11.index t a * S2x32x128x128.size a + S2x32x128x128.size a := by
  show i ∈ ((View.whole main_v8).slice (win0_11.rect t)).set ↔ _
  rw [View.set_slice_whole, Rect.mem_set_unit]
  exact Iff.rfl

/-- Every entry of the result array is written back by some point: image `b` by point `b / 2`. -/
theorem cover (i : S8x32x128x128.Idx) :
    ∃ t : Fin cfg0.N, (cfg0.win 11).flush t = true ∧ i ∈ ((cfg0.win 11).blk t).view.set := by
  have h0 : (i 0).val < 8 := (i 0).isLt
  have h1 : (i 1).val < 32 := (i 1).isLt
  have h2 : (i 2).val < 128 := (i 2).isLt
  have h3 : (i 3).val < 128 := (i 3).isLt
  let t : Fin cfg0.N := ⟨(i 0).val / 2, by show (i 0).val / 2 < 4; omega⟩
  have ht : t.val = (i 0).val / 2 := rfl
  have e := idx_facts t
  refine ⟨t, flush0_11 t, ?_⟩
  rw [mem_blk]
  intro a
  match a with
  | ⟨0, _⟩ => show win0_11.index t (0 : Fin 4) * 2 ≤ (i 0).val ∧ (i 0).val < win0_11.index t (0 : Fin 4) * 2 + 2; omega
  | ⟨1, _⟩ => show win0_11.index t (1 : Fin 4) * 32 ≤ (i 1).val ∧ (i 1).val < win0_11.index t (1 : Fin 4) * 32 + 32; omega
  | ⟨2, _⟩ => show win0_11.index t (2 : Fin 4) * 128 ≤ (i 2).val ∧ (i 2).val < win0_11.index t (2 : Fin 4) * 128 + 128; omega
  | ⟨3, _⟩ => show win0_11.index t (3 : Fin 4) * 128 ≤ (i 3).val ∧ (i 3).val < win0_11.index t (3 : Fin 4) * 128 + 128; omega

/-- THE ARRAY after the run is the residual block of the argument arrays. -/
theorem final (c : Dev nD) : (dats m 0 c).arrAt 11 cfg0.N
    = resblock (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  rw [← V_main_arg0 m c, ← V_main_arg1 m c, ← V_main_arg2 m c]
  exact (dats m 0 c).arrAt_eq_of_cover 11 (result m c) (fun t _ => flushed_eq m c t) cover

/-! ## The run, read -/

/-- Every weakly fair execution of the kernel's program ends with the result array at the residual block of the
    argument arrays, and the arguments as launched. -/
theorem run : θ_run defs (onTc (τ := τ) (main (F := Ideal))) ⟨m, fun _ => 0, ρ⟩ fun r => ∀ c : Dev nD,
      r.2.mem ((c : Thread nD τ).loc main_v8)
        = resblock (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 11).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 6).trans (((dats m 0 c).arrAt_in 6 rfl _).trans ((A_eq m c 6).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.ResBlock.KernelValue
-- ==== Proof.RefRun.lean ====
/-
  The reference's run.

  The reference is a straight line of 53 host operations: two adder layers, each followed by its batch norm
  — the same 21 operations on other operands —, a ReLU after the first (three operations of a called function),
  the residual sum and a last ReLU.  An adder layer spreads the input over a new output-channel axis and the
  weights over the images and pixels, takes the absolute difference entry by entry, sums over the input-channel
  axis onto a zero and negates.  `out` is that composition as one function of the argument arrays, and
  the run ends with the result buffer at `out` of the arguments as launched, the arguments unchanged.
-/
import proofs.«115080_j15298673509110_1_alg».proof.Proof.Gen.ReferenceIdeal
import Idealize.ShloMosaic.Lib.StableHlo.Run

noncomputable section

namespace Cert.ResBlock.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two ReLU calls' three operations each written out at the call. -/
abbrev ops : List (HloOp τ sig (Elt F)) :=
  [ unary main_arg0 main_v0 (broadcastInDim S8x1x32x128x128 ![0, 2, 3, 4] bcast_S8x32x128x128_S8x1x32x128x128_0_2_3_4 : (⟨S8x32x128x128, .f32⟩ : BufTy).Contents (Elt F) → (⟨S8x1x32x128x128, .f32⟩ : BufTy).Contents (Elt F)),
    unary main_arg1 main_v1 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v0 main_v2 (broadcastInDim S8x32x32x128x128 ![0, 1, 2, 3, 4] bcast_S8x1x32x128x128_S8x32x32x128x128_0_1_2_3_4 : (⟨S8x1x32x128x128, .f32⟩ : BufTy).Contents (Elt F) → (⟨S8x32x32x128x128, .f32⟩ : BufTy).Contents (Elt F)),
    unary main_v1 main_v3 (broadcastInDim S8x32x32x128x128 ![0, 1, 2, 3, 4] bcast_S1x32x32x1x1_S8x32x32x128x128_0_1_2_3_4 : (⟨S1x32x32x1x1, .f32⟩ : BufTy).Contents (Elt F) → (⟨S8x32x32x128x128, .f32⟩ : BufTy).Contents (Elt F)),
    binary main_v2 main_v3 main_v4 (subf : (⟨S8x32x32x128x128, .f32⟩ : BufTy).Contents (Elt F) → (⟨S8x32x32x128x128, .f32⟩ : BufTy).Contents (Elt F) → (⟨S8x32x32x128x128, .f32⟩ : BufTy).Contents (Elt F)),
    unary main_v4 main_v5 (Host.absf : (⟨S8x32x32x128x128, .f32⟩ : BufTy).Contents (Elt F) → (⟨S8x32x32x128x128, .f32⟩ : BufTy).Contents (Elt F)),
    nullary main_cst (constant S_ .f32 0x00000000#32),
    binary main_v5 main_cst main_v6 ((fun x v => Host.reduceAdd x v reducesTo_S8x32x32x128x128_S8x32x128x128_d2 h_S_) : (⟨S8x32x32x128x128, .f32⟩ : BufTy).Contents (Elt F) → (⟨S_, .f32⟩ : BufTy).Contents (Elt F) → (⟨S8x32x128x128, .f32⟩ : BufTy).Contents (Elt F)),
    unary main_v6 main_v7 (Host.negf : (⟨S8x32x128x128, .f32⟩ : BufTy).Contents (Elt F) → (⟨S8x32x128x128, .f32⟩ : BufTy).Contents (Elt F)),
    nullary main_cst_0 (constant S_ .f32 0x3727C5AC#32),
    unary main_cst_0 main_v8 (broadcastInDim S32 ![] bcast_S_S32 : (⟨S_, .f32⟩ : BufTy).Contents (Elt F) → (⟨S32, .f32⟩ : BufTy).Contents (Elt F)),
    binary main_arg6 main_v8 main_v9 (addf : (⟨S32, .f32⟩ : BufTy).Contents (Elt F) → (⟨S32, .f32⟩ : BufTy).Contents (Elt F) → (⟨S32, .f32⟩ : BufTy).Contents (Elt F)),
    unary main_v9 main_v10 (Host.rsqrt : (⟨S32, .f32⟩ : BufTy).Contents (Elt F) → (⟨S32, .f32⟩ : BufTy).Contents (Elt F)),
    unary main_arg5 main_v11 (broadcastInDim S1x32x1x1 ![1] bcast_S32_S1x32x1x1_1 : (⟨S32, .f32⟩ : BufTy).Contents (Elt F) → (⟨S1x32x1x1, .f32⟩ : BufTy).Contents (Elt F)),
    unary main_v11 main_v12 (broadcastInDim S8x32x128x128 ![0, 1, 2, 3] bcast_S1x32x1x1_S8x32x128x128_0_1_2_3 : (⟨S1x32x1x1, .f32⟩ : BufTy).Contents (Elt F) → (⟨S8x32x128x128, .f32⟩ : BufTy).Contents (Elt F)),
    binary main_v7 main_v12 main_v13 (subf : (⟨S8x32x128x128, .f32⟩ : BufTy).Contents (Elt F) → (⟨S8x32x128x128, .f32⟩ : BufTy).Contents (Elt F) → (⟨S8x32x128x128, .f32⟩ : BufTy).Contents (Elt F)),
    binary main_arg3 main_v10 main_v14 (mulf : (⟨S32, .f32⟩ : BufTy).Contents (Elt F) → (⟨S32, .f32⟩ : BufTy).Contents (Elt F) → (⟨S32, .f32⟩ : BufTy).Contents (Elt F)),
    unary main_v14 main_v15 (broadcastInDim S1x32x1x1 ![1] bcast_S32_S1x32x1x1_1 : (⟨S32, .f32⟩ : BufTy).Contents (Elt F) → (⟨S1x32x1x1, .f32⟩ : BufTy).Contents (Elt F)),
    unary main_v15 main_v16 (broadcastInDim S8x32x128x128 ![0, 1, 2, 3] bcast_S1x32x1x1_S8x32x128x128_0_1_2_3 : (⟨S1x32x1x1, .f32⟩ : BufTy).Contents (Elt F) → (⟨S8x32x128x128, .f32⟩ : BufTy).Contents (Elt F)),
    binary main_v13 main_v16 main_v17 (mulf : (⟨S8x32x128x128, .f32⟩ : BufTy).Contents (Elt F) → (⟨S8x32x128x128, .f32⟩ : BufTy).Contents (Elt F) → (⟨S8x32x128x128, .f32⟩ : BufTy).Contents (Elt F)),
    unary main_arg4 main_v18 (broadcastInDim S1x32x1x1 ![1] bcast_S32_S1x32x1x1_1 : (⟨S32, .f32⟩ : BufTy).Contents (Elt F) → (⟨S1x32x1x1, .f32⟩ : BufTy).Contents (Elt F)),
    unary main_v18 main_v19 (broadcastInDim S8x32x128x128 ![0, 1, 2, 3] bcast_S1x32x1x1_S8x32x128x128_0_1_2_3 : (⟨S1x32x1x1, .f32⟩ : BufTy).Contents (Elt F) → (⟨S8x32x128x128, .f32⟩ : BufTy).Contents (Elt F)),
    binary main_v17 main_v19 main_v20 (addf : (⟨S8x32x128x128, .f32⟩ : BufTy).Contents (Elt F) → (⟨S8x32x128x128, .f32⟩ : BufTy).Contents (Elt F) → (⟨S8x32x128x128, .f32⟩ : BufTy).Contents (Elt F)),
    TRef.nullary main_call0.cst (constant S_ .f32 0x00000000#32),
    TRef.unary main_call0.cst main_call0.v0 (broadcastInDim S8x32x128x128 ![] bcast_S_S8x32x128x128),
    TRef.binary (.of main_v20) main_call0.v0 main_call0.v1 maximumf,
    unary main_v21 main_v22 (broadcastInDim S8x1x32x128x128 ![0, 2, 3, 4] bcast_S8x32x128x128_S8x1x32x128x128_0_2_3_4 : (⟨S8x32x128x128, .f32⟩ : BufTy).Contents (Elt F) → (⟨S8x1x32x128x128, .f32⟩ : BufTy).Contents (Elt F)),
    unary main_arg2 main_v23 (broadcastInDim S1x32x32x1x1 ![1, 2] bcast_S32x32_S1x32x32x1x1_1_2 : (⟨S32x32, .f32⟩ : BufTy).Contents (Elt F) → (⟨S1x32x32x1x1, .f32⟩ : BufTy).Contents (Elt F)),
    unary main_v22 main_v24 (broadcastInDim S8x32x32x128x128 ![0, 1, 2, 3, 4] bcast_S8x1x32x128x128_S8x32x32x128x128_0_1_2_3_4 : (⟨S8x1x32x128x128, .f32⟩ : BufTy).Contents (Elt F) → (⟨S8x32x32x128x128, .f32⟩ : BufTy).Contents (Elt F)),
    unary main_v23 main_v25 (broadcastInDim S8x32x32x128x128 ![0, 1, 2, 3, 4] bcast_S1x32x32x1x1_S8x32x32x128x128_0_1_2_3_4 : (⟨S1x32x32x1x1, .f32⟩ : BufTy).Contents (Elt F) → (⟨S8x32x32x128x128, .f32⟩ : BufTy).Contents (Elt F)),
    binary main_v24 main_v25 main_v26 (subf : (⟨S8x32x32x128x128, .f32⟩ : BufTy).Contents (Elt F) → (⟨S8x32x32x128x128, .f32⟩ : BufTy).Contents (Elt F) → (⟨S8x32x32x128x128, .f32⟩ : BufTy).Contents (Elt F)),
    unary main_v26 main_v27 (Host.absf : (⟨S8x32x32x128x128, .f32⟩ : BufTy).Contents (Elt F) → (⟨S8x32x32x128x128, .f32⟩ : BufTy).Contents (Elt F)),
    nullary main_cst_1 (constant S_ .f32 0x00000000#32),
    binary main_v27 main_cst_1 main_v28 ((fun x v => Host.reduceAdd x v reducesTo_S8x32x32x128x128_S8x32x128x128_d2 h_S_) : (⟨S8x32x32x128x128, .f32⟩ : BufTy).Contents (Elt F) → (⟨S_, .f32⟩ : BufTy).Contents (Elt F) → (⟨S8x32x128x128, .f32⟩ : BufTy).Contents (Elt F)),
    unary main_v28 main_v29 (Host.negf : (⟨S8x32x128x128, .f32⟩ : BufTy).Contents (Elt F) → (⟨S8x32x128x128, .f32⟩ : BufTy).Contents (Elt F)),
    nullary main_cst_2 (constant S_ .f32 0x3727C5AC#32),
    unary main_cst_2 main_v30 (broadcastInDim S32 ![] bcast_S_S32 : (⟨S_, .f32⟩ : BufTy).Contents (Elt F) → (⟨S32, .f32⟩ : BufTy).Contents (Elt F)),
    binary main_arg10 main_v30 main_v31 (addf : (⟨S32, .f32⟩ : BufTy).Contents (Elt F) → (⟨S32, .f32⟩ : BufTy).Contents (Elt F) → (⟨S32, .f32⟩ : BufTy).Contents (Elt F)),
    unary main_v31 main_v32 (Host.rsqrt : (⟨S32, .f32⟩ : BufTy).Contents (Elt F) → (⟨S32, .f32⟩ : BufTy).Contents (Elt F)),
    unary main_arg9 main_v33 (broadcastInDim S1x32x1x1 ![1] bcast_S32_S1x32x1x1_1 : (⟨S32, .f32⟩ : BufTy).Contents (Elt F) → (⟨S1x32x1x1, .f32⟩ : BufTy).Contents (Elt F)),
    unary main_v33 main_v34 (broadcastInDim S8x32x128x128 ![0, 1, 2, 3] bcast_S1x32x1x1_S8x32x128x128_0_1_2_3 : (⟨S1x32x1x1, .f32⟩ : BufTy).Contents (Elt F) → (⟨S8x32x128x128, .f32⟩ : BufTy).Contents (Elt F)),
    binary main_v29 main_v34 main_v35 (subf : (⟨S8x32x128x128, .f32⟩ : BufTy).Contents (Elt F) → (⟨S8x32x128x128, .f32⟩ : BufTy).Contents (Elt F) → (⟨S8x32x128x128, .f32⟩ : BufTy).Contents (Elt F)),
    binary main_arg7 main_v32 main_v36 (mulf : (⟨S32, .f32⟩ : BufTy).Contents (Elt F) → (⟨S32, .f32⟩ : BufTy).Contents (Elt F) → (⟨S32, .f32⟩ : BufTy).Contents (Elt F)),
    unary main_v36 main_v37 (broadcastInDim S1x32x1x1 ![1] bcast_S32_S1x32x1x1_1 : (⟨S32, .f32⟩ : BufTy).Contents (Elt F) → (⟨S1x32x1x1, .f32⟩ : BufTy).Contents (Elt F)),
    unary main_v37 main_v38 (broadcastInDim S8x32x128x128 ![0, 1, 2, 3] bcast_S1x32x1x1_S8x32x128x128_0_1_2_3 : (⟨S1x32x1x1, .f32⟩ : BufTy).Contents (Elt F) → (⟨S8x32x128x128, .f32⟩ : BufTy).Contents (Elt F)),
    binary main_v35 main_v38 main_v39 (mulf : (⟨S8x32x128x128, .f32⟩ : BufTy).Contents (Elt F) → (⟨S8x32x128x128, .f32⟩ : BufTy).Contents (Elt F) → (⟨S8x32x128x128, .f32⟩ : BufTy).Contents (Elt F)),
    unary main_arg8 main_v40 (broadcastInDim S1x32x1x1 ![1] bcast_S32_S1x32x1x1_1 : (⟨S32, .f32⟩ : BufTy).Contents (Elt F) → (⟨S1x32x1x1, .f32⟩ : BufTy).Contents (Elt F)),
    unary main_v40 main_v41 (broadcastInDim S8x32x128x128 ![0, 1, 2, 3] bcast_S1x32x1x1_S8x32x128x128_0_1_2_3 : (⟨S1x32x1x1, .f32⟩ : BufTy).Contents (Elt F) → (⟨S8x32x128x128, .f32⟩ : BufTy).Contents (Elt F)),
    binary main_v39 main_v41 main_v42 (addf : (⟨S8x32x128x128, .f32⟩ : BufTy).Contents (Elt F) → (⟨S8x32x128x128, .f32⟩ : BufTy).Contents (Elt F) → (⟨S8x32x128x128, .f32⟩ : BufTy).Contents (Elt F)),
    binary main_v42 main_arg0 main_v43 (addf : (⟨S8x32x128x128, .f32⟩ : BufTy).Contents (Elt F) → (⟨S8x32x128x128, .f32⟩ : BufTy).Contents (Elt F) → (⟨S8x32x128x128, .f32⟩ : BufTy).Contents (Elt F)),
    TRef.nullary main_call1.cst (constant S_ .f32 0x00000000#32),
    TRef.unary main_call1.cst main_call1.v0 (broadcastInDim S8x32x128x128 ![] bcast_S_S8x32x128x128),
    TRef.binary (.of main_v43) main_call1.v0 main_call1.v1 maximumf ]

/-- An adder layer and its batch norm over whole arrays: the input `X` against the weights `W`, then the
    norm with scale `γ`, shift `β`, running mean `μ` and running variance `var`. -/
def layer (X : FVec F S8x32x128x128 .f32) (W : FVec F S32x32 .f32) (γ β μ var : FVec F S32 .f32) :
    FVec F S8x32x128x128 .f32 :=
  addf
    (mulf
      (subf
        (Host.negf (Host.reduceAdd
          (Host.absf (subf (broadcastInDim S8x32x32x128x128 ![0, 1, 2, 3, 4] bcast_S8x1x32x128x128_S8x32x32x128x128_0_1_2_3_4 (broadcastInDim S8x1x32x128x128 ![0, 2, 3, 4] bcast_S8x32x128x128_S8x1x32x128x128_0_2_3_4 X)) (broadcastInDim S8x32x32x128x128 ![0, 1, 2, 3, 4] bcast_S1x32x32x1x1_S8x32x32x128x128_0_1_2_3_4 (broadcastInDim S1x32x32x1x1 ![1, 2] bcast_S32x32_S1x32x32x1x1_1_2 W))))
          (constant S_ .f32 0x00000000#32) reducesTo_S8x32x32x128x128_S8x32x128x128_d2 h_S_))
        (broadcastInDim S8x32x128x128 ![0, 1, 2, 3] bcast_S1x32x1x1_S8x32x128x128_0_1_2_3 (broadcastInDim S1x32x1x1 ![1] bcast_S32_S1x32x1x1_1 μ)))
      (broadcastInDim S8x32x128x128 ![0, 1, 2, 3] bcast_S1x32x1x1_S8x32x128x128_0_1_2_3 (broadcastInDim S1x32x1x1 ![1] bcast_S32_S1x32x1x1_1 (mulf γ (Host.rsqrt (addf var (broadcastInDim S32 ![] bcast_S_S32 (constant S_ .f32 0x3727C5AC#32))))))))
    (broadcastInDim S8x32x128x128 ![0, 1, 2, 3] bcast_S1x32x1x1_S8x32x128x128_0_1_2_3 (broadcastInDim S1x32x1x1 ![1] bcast_S32_S1x32x1x1_1 β))

/-- The ReLU as the host computes it: the larger of each entry and a zero spread over the array. -/
def relu (Z : FVec F S8x32x128x128 .f32) : FVec F S8x32x128x128 .f32 :=
  maximumf Z (broadcastInDim S8x32x128x128 ![] bcast_S_S8x32x128x128 (constant S_ .f32 0x00000000#32))

/-- The reference's result as one function of its eleven arguments. -/
def out (X : FVec F S8x32x128x128 .f32) (W1 W2 : FVec F S32x32 .f32) (γ1 β1 μ1 var1 γ2 β2 μ2 var2 : FVec F S32 .f32) :
    FVec F S8x32x128x128 .f32 :=
  relu (addf (layer (relu (layer X W1 γ1 β1 μ1 var1)) W2 γ2 β2 μ2 var2) X)

set_option maxRecDepth 1024 in
/-- @main is that straight line: the called function's definition unfolded at its two calls. -/
theorem main_eq (c : Dev nD) : main (F := F) c = seq ops := by
  simp only [main, fn_relu.body, seq, bind_assoc, pure_bind]

attribute [local irreducible] Host.reduceAdd in
set_option maxRecDepth 8192 in
set_option maxHeartbeats 400000 in
/-- The fold of the operations at the result buffer is `out` of the arguments. -/
theorem out_eq (V : Valuation τ sig (Elt F)) :
    after ops V (main_v44 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

theorem arg8_eq (V : Valuation τ sig (Elt F)) :
    after ops V (main_arg8 : DevRef τ sig) = V (main_arg8 : DevRef τ sig) := by
  simp only [after_cons, after_nil]
  rfl

theorem arg9_eq (V : Valuation τ sig (Elt F)) :
    after ops V (main_arg9 : DevRef τ sig) = V (main_arg9 : DevRef τ sig) := by
  simp only [after_cons, after_nil]
  rfl

theorem arg10_eq (V : Valuation τ sig (Elt F)) :
    after ops V (main_arg10 : DevRef τ sig) = V (main_arg10 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., unary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., nullary_bufs_sub .., binary_bufs_sub .., unary_bufs_sub .., nullary_bufs_sub .., unary_bufs_sub .., binary_bufs_sub .., unary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub ..⟩

/-- Every weakly fair execution of the reference's program ends with the result buffer at `out` of the arguments
    as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v44).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c))⟩)
    (run_seq scopedRefs_eq scopedSems_eq defs main (fun _ => ops) main_eq (fun _ => ops_sub) m ρ)

end Cert.ResBlock.RefRun
-- ==== Proof.RefReads.lean ====
/-
  Reading the reference's layout operations at an index.

  The reference lays the input out as [8, 1, 32, 128, 128] and spreads it over a new axis of 32 output channels,
  lays a weight matrix out as [1, 32, 32, 1, 1] and spreads it over the 8 images and the pixels, and spreads each
  per-channel vector, laid out as [1, 32, 1, 1], over the result.  Each lemma reads ONE such broadcast at an index
  written by its coordinates; the last reads the sum over the input-channel axis at an index of the result.
-/
import Idealize.ShloMosaic.Lib.Pipeline.Value
import Idealize.ShloMosaic.Lib.ValueIdx
import Idealize.ShloMosaic.PureOps.Ideal.Laws

namespace Cert.ResBlock

open Idealize.ShloMosaic Idealize.ShloMosaic.ValueIdx

/-- The whole input or result: 8 images of 32 channels. -/
abbrev Arr : Shape := ⟨4, ![8, 32, 128, 128]⟩
/-- The input with a unit output-channel axis. -/
abbrev ArrIn : Shape := ⟨5, ![8, 1, 32, 128, 128]⟩
/-- Image, output channel, input channel, pixel. -/
abbrev ArrOutIn : Shape := ⟨5, ![8, 32, 32, 128, 128]⟩
/-- A weight matrix laid out against `ArrOutIn`. -/
abbrev WtOutIn : Shape := ⟨5, ![1, 32, 32, 1, 1]⟩
/-- A 32 × 32 weight matrix. -/
abbrev Wts : Shape := ⟨2, ![32, 32]⟩
/-- A per-channel vector. -/
abbrev Chans : Shape := ⟨1, ![32]⟩
/-- A per-channel vector laid out against `Arr`. -/
abbrev ChansArr : Shape := ⟨4, ![1, 32, 1, 1]⟩
/-- A scalar. -/
abbrev Scal : Shape := ⟨0, ![]⟩

variable {α : Type}

/-- The input given a unit output-channel axis: `(b, _, k, y, x)` reads `(b, k, y, x)`. -/
theorem input_laid (v : Arr.Idx → α) (dims : Fin Arr.rank → Fin ArrIn.rank) (h : Arr.BroadcastsInDim ArrIn dims) (hd : dims = ![0, 2, 3, 4])
    (b : Fin 8) (z : Fin 1) (k : Fin 32) (y x : Fin 128) :
    broadcastInDim ArrIn dims h v (ix5 b z k y x) = v (ix4 b k y x) :=
  by
  subst hd
  exact broadcastInDim_apply _ h v _ _ fun a => by
    match a with
    | ⟨0, _⟩ => rfl
    | ⟨1, _⟩ => rfl
    | ⟨2, _⟩ => rfl
    | ⟨3, _⟩ => rfl

/-- The input spread over the output channels: `(b, c, k, y, x)` reads `(b, 0, k, y, x)`. -/
theorem input_spread (v : ArrIn.Idx → α) (dims : Fin ArrIn.rank → Fin ArrOutIn.rank) (h : ArrIn.BroadcastsInDim ArrOutIn dims) (hd : dims = ![0, 1, 2, 3, 4])
    (b : Fin 8) (c k : Fin 32) (y x : Fin 128) :
    broadcastInDim ArrOutIn dims h v (ix5 b c k y x) = v (ix5 b (0 : Fin 1) k y x) :=
  by
  subst hd
  exact broadcastInDim_apply _ h v _ _ fun a => by
    match a with
    | ⟨0, _⟩ => rfl
    | ⟨1, _⟩ => rfl
    | ⟨2, _⟩ => rfl
    | ⟨3, _⟩ => rfl
    | ⟨4, _⟩ => rfl

/-- A weight matrix laid out against the five axes: `(_, c, k, _, _)` reads `(c, k)`. -/
theorem weights_laid (v : Wts.Idx → α) (dims : Fin Wts.rank → Fin WtOutIn.rank) (h : Wts.BroadcastsInDim WtOutIn dims) (hd : dims = ![1, 2])
    (a : Fin 1) (c k : Fin 32) (d e : Fin 1) :
    broadcastInDim WtOutIn dims h v (ix5 a c k d e) = v (ix2 c k) :=
  by
  subst hd
  exact broadcastInDim_apply _ h v _ _ fun ax => by
    match ax with
    | ⟨0, _⟩ => rfl
    | ⟨1, _⟩ => rfl

/-- The weights spread over images and pixels: `(b, c, k, y, x)` reads `(0, c, k, 0, 0)`. -/
theorem weights_spread (v : WtOutIn.Idx → α) (dims : Fin WtOutIn.rank → Fin ArrOutIn.rank) (h : WtOutIn.BroadcastsInDim ArrOutIn dims) (hd : dims = ![0, 1, 2, 3, 4])
    (b : Fin 8) (c k : Fin 32) (y x : Fin 128) :
    broadcastInDim ArrOutIn dims h v (ix5 b c k y x) = v (ix5 (0 : Fin 1) c k (0 : Fin 1) (0 : Fin 1)) :=
  by
  subst hd
  exact broadcastInDim_apply _ h v _ _ fun a => by
    match a with
    | ⟨0, _⟩ => rfl
    | ⟨1, _⟩ => rfl
    | ⟨2, _⟩ => rfl
    | ⟨3, _⟩ => rfl
    | ⟨4, _⟩ => rfl

/-- A per-channel vector laid out against the result: `(_, c, _, _)` reads `c`. -/
theorem chans_laid (v : Chans.Idx → α) (dims : Fin Chans.rank → Fin ChansArr.rank) (h : Chans.BroadcastsInDim ChansArr dims) (hd : dims = ![1])
    (a : Fin 1) (c : Fin 32) (d e : Fin 1) :
    broadcastInDim ChansArr dims h v (ix4 a c d e) = v (ix1 c) :=
  by
  subst hd
  exact broadcastInDim_apply _ h v _ _ fun ax => by
    match ax with
    | ⟨0, _⟩ => rfl

/-- A per-channel layout spread over the result: `(b, c, y, x)` reads `(0, c, 0, 0)`. -/
theorem chans_spread (v : ChansArr.Idx → α) (dims : Fin ChansArr.rank → Fin Arr.rank) (h : ChansArr.BroadcastsInDim Arr dims) (hd : dims = ![0, 1, 2, 3])
    (b : Fin 8) (c : Fin 32) (y x : Fin 128) :
    broadcastInDim Arr dims h v (ix4 b c y x) = v (ix4 (0 : Fin 1) c (0 : Fin 1) (0 : Fin 1)) :=
  by
  subst hd
  exact broadcastInDim_apply _ h v _ _ fun a => by
    match a with
    | ⟨0, _⟩ => rfl
    | ⟨1, _⟩ => rfl
    | ⟨2, _⟩ => rfl
    | ⟨3, _⟩ => rfl

/-- A scalar spread over a per-channel vector. -/
theorem scalar_chans (v : Scal.Idx → α) (dims : Fin Scal.rank → Fin Chans.rank) (h : Scal.BroadcastsInDim Chans dims) (c : Fin 32) :
    broadcastInDim Chans dims h v (ix1 c) = v ix0 :=
  broadcastInDim_apply _ h v _ _ fun a => a.elim0

/-- A scalar spread over the result. -/
theorem scalar_arr (v : Scal.Idx → α) (dims : Fin Scal.rank → Fin Arr.rank) (h : Scal.BroadcastsInDim Arr dims)
    (b : Fin 8) (c : Fin 32) (y x : Fin 128) :
    broadcastInDim Arr dims h v (ix4 b c y x) = v ix0 :=
  broadcastInDim_apply _ h v _ _ fun a => a.elim0

/-- The host's sum over the input-channel axis onto an initial scalar, at `(b, c, y, x)`: the initial value plus the
    sum over the 32 input channels `k` of the operand at `(b, c, k, y, x)`. -/
theorem sum_in_channels (v : ArrOutIn.Idx → EReal) (init : Scal.Idx → EReal) (h : ArrOutIn.ReducesTo [2] Arr)
    (hu : 0 < Scal.numel) (b : Fin 8) (c : Fin 32) (y x : Fin 128) :
    Host.reduceAdd (F := Ideal) (φ := .f32) v init h hu (ix4 b c y x)
      = init ix0 + ∑ k : Fin 32, v (ix5 b c k y x) := by
  have hr : ArrOutIn.Reduces [2] Arr := by decide
  show Ideal.hostReduceAdd h v (init (Shape.Idx.first hu)) (ix4 b c y x) = _
  rw [Ideal.hostReduceAdd_single h hr, eq_ix0 (Shape.Idx.first hu)]
  refine congrArg (init ix0 + ·) (Finset.sum_congr rfl fun k _ => congrArg v (funext fun a => Fin.ext ?_))
  match a with
  | ⟨0, _⟩ => rfl
  | ⟨1, _⟩ => rfl
  | ⟨2, _⟩ => rfl
  | ⟨3, _⟩ => rfl
  | ⟨4, _⟩ => rfl

end Cert.ResBlock
-- ==== Proof.RefPoint.lean ====
/-
  The reference's result at one index.

  Read at `(b, c, y, x)`, an adder layer with its norm is the norm of minus the sum, onto a zero, over the 32
  input channels `k` of `|X (b, k, y, x) - W (c, k)|` (`layer_at`); a ReLU is the larger of the entry and zero.
  So the reference's result at that index is the residual block's value at pixel `(y, x)` of image `b`, and the
  result array is `resblock` of the arguments.
-/
import proofs.«115080_j15298673509110_1_alg».proof.Proof.RefRun
import proofs.«115080_j15298673509110_1_alg».proof.Proof.RefReads
import proofs.«115080_j15298673509110_1_alg».proof.Proof.Spec
import Idealize.ShloMosaic.PureOps.Ideal.Laws

set_option maxRecDepth 16384

noncomputable section

namespace Cert.ResBlock.RefValue

open Cert.ResBlock Cert.ResBlock.RefRun Cert.ReferenceIdeal Cert.ReferenceIdeal.Gen
open Idealize.ShloMosaic Idealize.ShloMosaic.ValueIdx

theorem hostAbsf_apply {s : Shape} {φ : FTy} (a : FVec Ideal s φ) (i : s.Idx) : Host.absf a i = max (a i) (-(a i)) := rfl
theorem hostNegf_apply {s : Shape} {φ : FTy} (a : FVec Ideal s φ) (i : s.Idx) : Host.negf a i = -(a i) := rfl
theorem hostRsqrt_apply {s : Shape} {φ : FTy} (a : FVec Ideal s φ) (i : s.Idx) : Host.rsqrt a i = Ideal.rsqrt (a i) := rfl

/-- An adder layer with its norm at one index. -/
theorem layer_at (X : FVec Ideal S8x32x128x128 .f32) (W : FVec Ideal S32x32 .f32) (γ β μ var : FVec Ideal S32 .f32)
    (b : Fin 8) (c : Fin 32) (y x : Fin 128) :
    layer X W γ β μ var (ix4 b c y x)
      = bn (adder (fun k => X (ix4 b k y x)) (fun k => W (ix2 c k))) (γ (ix1 c)) (β (ix1 c)) (μ (ix1 c)) (var (ix1 c)) := by
  simp only [layer, addf_apply, mulf_apply, subf_apply, hostAbsf_apply, hostNegf_apply, hostRsqrt_apply, constant_apply,
    chans_spread (h := bcast_S1x32x1x1_S8x32x128x128_0_1_2_3) (hd := rfl), chans_laid (h := bcast_S32_S1x32x1x1_1) (hd := rfl),
    scalar_chans (h := bcast_S_S32), scalar_arr (h := bcast_S_S8x32x128x128),
    input_spread (h := bcast_S8x1x32x128x128_S8x32x32x128x128_0_1_2_3_4) (hd := rfl),
    input_laid (h := bcast_S8x32x128x128_S8x1x32x128x128_0_2_3_4) (hd := rfl),
    weights_spread (h := bcast_S1x32x32x1x1_S8x32x32x128x128_0_1_2_3_4) (hd := rfl),
    weights_laid (h := bcast_S32x32_S1x32x32x1x1_1_2) (hd := rfl), sum_in_channels,
    Ideal.ofBits_zero_f32]
  rw [← adder_eq_zero_add]
  rfl

/-- A ReLU at one index. -/
theorem relu_at (Z : FVec Ideal S8x32x128x128 .f32) (b : Fin 8) (c : Fin 32) (y x : Fin 128) :
    relu Z (ix4 b c y x) = max (Z (ix4 b c y x)) 0 := by
  simp only [relu, maximumf_apply, scalar_arr (h := bcast_S_S8x32x128x128), constant_apply, Ideal.ofBits_zero_f32]

/-- The reference's result at one index is the residual block's value at that pixel. -/
theorem out_at (X : FVec Ideal S8x32x128x128 .f32) (W1 W2 : FVec Ideal S32x32 .f32)
    (γ1 β1 μ1 var1 γ2 β2 μ2 var2 : FVec Ideal S32 .f32) (b : Fin 8) (c : Fin 32) (y x : Fin 128) :
    out X W1 W2 γ1 β1 μ1 var1 γ2 β2 μ2 var2 (ix4 b c y x)
      = point (fun k => X (ix4 b k y x)) (fun co ci => W1 (ix2 co ci)) (fun co ci => W2 (ix2 co ci))
          (fun ch => γ1 (ix1 ch)) (fun ch => β1 (ix1 ch)) (fun ch => μ1 (ix1 ch)) (fun ch => var1 (ix1 ch))
          (fun ch => γ2 (ix1 ch)) (fun ch => β2 (ix1 ch)) (fun ch => μ2 (ix1 ch)) (fun ch => var2 (ix1 ch)) c := by
  simp only [out, relu_at, addf_apply, layer_at]
  rfl

/-- The reference's result array is the residual block of its arguments. -/
theorem out_eq_resblock (X : FVec Ideal S8x32x128x128 .f32) (W1 W2 : FVec Ideal S32x32 .f32)
    (γ1 β1 μ1 var1 γ2 β2 μ2 var2 : FVec Ideal S32 .f32) :
    out X W1 W2 γ1 β1 μ1 var1 γ2 β2 μ2 var2 = resblock X W1 W2 γ1 β1 μ1 var1 γ2 β2 μ2 var2 := by
  funext i
  obtain ⟨b, c, y, x, rfl⟩ : ∃ (b : Fin 8) (c : Fin 32) (y x : Fin 128), i = ix4 b c y x :=
    ⟨i 0, i 1, i 2, i 3, eq_ix4 i⟩
  rw [out_at]
  rfl

end Cert.ResBlock.RefValue
-- ==== Proof.lean ====
/-
  A residual block of two adder layers — an AdderNet "convolution" of kernel size one replaces each dot product
  by a negated L1 distance, `y[b, c, h, w] = -∑ ci, |x[b, ci, h, w] - W[c, ci]|` — each followed by a batch norm with
  running statistics, `(y - μ) · (γ · rsqrt (σ² + ε)) + β`; a ReLU after the first norm, the input added after the
  second, and a last ReLU.

  The kernel takes two images at a time, keeps everything in one block, and adds the 32 distances of a layer one at
  a time, from zero, in channel order; the reference forms the five-axis array of all differences and sums its
  input-channel axis in one reduction onto a zero.  On the extended reals addition is commutative and associative,
  so the running sum and the reduction agree for every input: the precondition is never opened.  The norm, the ReLU
  and the residual sum are the same operations on both sides, with the same float word for `ε`; the reciprocal square
  root is one function of the extended reals in the kernel and on the host.

  Both results are shown to be ONE function of the eleven argument arrays, `resblock` (Proof/Spec.lean): the kernel's
  from its frame run — what a grid point stores, read at an index (Proof/KernelPoint.lean), and the four points' blocks
  tiling the result (Proof/KernelValue.lean) —, the reference's from its run (Proof/RefRun.lean) read at an index
  (Proof/RefPoint.lean).  The ideal pass rewrote nothing, so `preserves` has nothing to state.
-/
import proofs.«115080_j15298673509110_1_alg».proof.Defs
import proofs.«115080_j15298673509110_1_alg».proof.Proof.Gen.Kernel
import proofs.«115080_j15298673509110_1_alg».proof.Proof.Gen.Kernel.Frame
import proofs.«115080_j15298673509110_1_alg».proof.Proof.Gen.KernelIdeal
import proofs.«115080_j15298673509110_1_alg».proof.Proof.Gen.KernelIdeal.Frame
import proofs.«115080_j15298673509110_1_alg».proof.Proof.Gen.ReferenceIdeal
import proofs.«115080_j15298673509110_1_alg».proof.Proof.Gen.Pre_finite_inputs
import proofs.«115080_j15298673509110_1_alg».proof.Proof.KernelValue
import proofs.«115080_j15298673509110_1_alg».proof.Proof.RefRun
import proofs.«115080_j15298673509110_1_alg».proof.Proof.RefPoint
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ResBlock.RefRun.run (F := Ideal) m ρ)

/-- The ideal pass rewrote no operation. -/
theorem preserves : Cert.preserves_Kernel_KernelIdeal := trivial

/-- From memories that agree on the arguments both programs end with the result array at the residual block of the
    arguments. -/
theorem algebraic : Cert.algebraic_KernelIdeal_ReferenceIdeal := by
  intro m ρ m' ρ' _ hagree
  refine ⟨_, Cert.ResBlock.KernelValue.run m ρ, ?_⟩
  refine (θ_run Cert.ReferenceIdeal.defs _ _).mono (fun _ h c => ⟨(h c).1.trans ?_, (h c).2⟩)
    (Cert.ResBlock.RefRun.run (F := Ideal) m' ρ')
  obtain ⟨e0, e1, e2, e3, e4, e5, e6, e7, e8, e9, e10⟩ := hagree c
  rw [e0, e1, e2, e3, e4, e5, e6, e7, e8, e9, e10]
  exact Cert.ResBlock.RefValue.out_eq_resblock _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
